-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8 : Shape := ⟨2, ![2048, 8]⟩
abbrev S256x50000 : Shape := ⟨2, ![256, 50000]⟩
abbrev S256 : Shape := ⟨1, ![256]⟩
abbrev S50000x256 : Shape := ⟨2, ![50000, 256]⟩
abbrev S50000 : Shape := ⟨1, ![50000]⟩
abbrev S_ : Shape := ⟨0, ![]⟩

class Facts : Prop where
  bcast_S_S256x50000 : S_.BroadcastsInDim S256x50000 (![] : Fin 0 → Fin S256x50000.rank)
  reducesTo_S256x50000_S_d0_1 : S256x50000.ReducesTo [0, 1] S_
  h_S_ : 0 < S_.numel
  bcast_S_S256 : S_.BroadcastsInDim S256 (![] : Fin 0 → Fin S256.rank)
  reducesTo_S256_S_d0 : S256.ReducesTo [0] S_
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg0 : IVec S2048x8 32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_c_6 : IVec S_ 32 := constantI S_ 32 0#32
  let main_v19 : IVec S2048x8 32 := broadcastInDim S2048x8 ![] bcast_S_S2048x8 main_c_6
  let main_v20 : IVec S2048x8 1 := cmpi .sge main_arg0 main_v19
  let main_c_7 : IVec S_ 32 := constantI S_ 32 50000#32
  let main_v21 : IVec S2048x8 32 := broadcastInDim S2048x8 ![] bcast_S_S2048x8 main_c_7
  let main_v22 : IVec S2048x8 1 := cmpi .slt main_arg0 main_v21
  let main_v23 : IVec S2048x8 1 := andi main_v20 main_v22
  let main_c_8 : IVec S_ 1 := constantI S_ 1 1#1
  let main_v24 : IVec S_ 1 := (fun x v => Host.reduce IntOp.andi x v reducesTo_S2048x8_S_d0_1 h_S_) main_v23 main_c_8
  let main_v25 : IVec S_ 1 := andi main_v18 main_v24
  main_v25

def fn {F : FTy → Type} [FloatOps F] (main_arg0 : IVec S2048x8 32) (main_arg1 : FVec F S256x50000 .f32) (main_arg2 : FVec F S256 .f32) (main_arg3 : FVec F S50000x256 .f32) (main_arg4 : FVec F S50000 .f32) : IVec S_ 1 :=
  let main_v0 : FVec F S256x50000 .f32 := Host.absf main_arg1
  let main_cst : FVec F S_ .f32 := constant S_ .f32 0x7F800000#32
  let main_v1 : FVec F S256x50000 .f32 := broadcastInDim S256x50000 ![] bcast_S_S256x50000 main_cst
  let main_v2 : IVec S256x50000 1 := cmpf .olt main_v0 main_v1
  let main_c : IVec S_ 1 := constantI S_ 1 1#1
  let main_v3 : IVec S_ 1 := (fun x v => Host.reduce IntOp.andi x v reducesTo_S256x50000_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000 .f32 := Host.absf main_arg4
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg0 main_v13 main_v16
-- ==== Kernel.lean ====
abbrev S2048x8 : Shape := ⟨2, ![2048, 8]⟩
abbrev S256x50000 : Shape := ⟨2, ![256, 50000]⟩
abbrev S256 : Shape := ⟨1, ![256]⟩
abbrev S50000x256 : Shape := ⟨2, ![50000, 256]⟩
abbrev S50000 : Shape := ⟨1, ![50000]⟩
abbrev S2048x8x1 : Shape := ⟨3, ![2048, 8, 1]⟩
abbrev S2048x1x8 : Shape := ⟨3, ![2048, 1, 8]⟩
abbrev S2048x8x8 : Shape := ⟨3, ![2048, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S_ : Shape := ⟨0, ![]⟩
abbrev S1 : Shape := ⟨1, ![1]⟩
abbrev S1x1x1 : Shape := ⟨3, ![1, 1, 1]⟩
abbrev S256x2048x8 : Shape := ⟨3, ![256, 2048, 8]⟩
abbrev S2048x8x256 : Shape := ⟨3, ![2048, 8, 256]⟩
abbrev S2048x256 : Shape := ⟨2, ![2048, 256]⟩
abbrev S1x256 : Shape := ⟨2, ![1, 256]⟩
abbrev S1x50000 : Shape := ⟨2, ![1, 50000]⟩
abbrev S2048x50000 : Shape := ⟨2, ![2048, 50000]⟩
abbrev S1024x256 : Shape := ⟨2, ![1024, 256]⟩
abbrev S1x2048 : Shape := ⟨2, ![1, 2048]⟩
abbrev S1024x2048 : Shape := ⟨2, ![1024, 2048]⟩

abbrev nBuf : Space → Nat
  | .hbm => 67
  | .vmem => 8
  | .smem => 0
  | _ => 0

abbrev bufTy : (tb : Table) → Fin (tcTables nBuf tb) → BufTy
  | .hbm, ⟨0, _⟩ => ⟨S2048x8, .i32⟩
  | .hbm, ⟨1, _⟩ => ⟨S256x50000, .f32⟩
  | .hbm, ⟨2, _⟩ => ⟨S256, .f32⟩
  | .hbm, ⟨3, _⟩ => ⟨S50000x256, .f32⟩
  | .hbm, ⟨4, _⟩ => ⟨S50000, .f32⟩
  | .hbm, ⟨5, _⟩ => ⟨S2048x8x1, .i32⟩
  | .hbm, ⟨6, _⟩ => ⟨S2048x1x8, .i32⟩
  | .hbm, ⟨7, _⟩ => ⟨S2048x8x8, .i32⟩
  | .hbm, ⟨8, _⟩ => ⟨S2048x8x8, .i32⟩
  | .hbm, ⟨9, _⟩ => ⟨S2048x8x8, .i1⟩
  | .hbm, ⟨10, _⟩ => ⟨S8, .i32⟩
  | .hbm, ⟨11, _⟩ => ⟨S8x1, .i32⟩
  | .hbm, ⟨12, _⟩ => ⟨S8, .i32⟩
  | .hbm, ⟨13, _⟩ => ⟨S1x8, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S1x8x8, .i1⟩
  | .hbm, ⟨18, _⟩ => ⟨S2048x8x8, .i1⟩
  | .hbm, ⟨19, _⟩ => ⟨S2048x8x8, .i1⟩
  | .hbm, ⟨20, _⟩ => ⟨S_, .i1⟩
  | .hbm, ⟨21, _⟩ => ⟨S2048x8, .i1⟩
  | .hbm, ⟨22, _⟩ => ⟨S2048x8, .i1⟩
  | .hbm, ⟨23, _⟩ => ⟨S_, .f32⟩
  | .hbm, ⟨24, _⟩ => ⟨S_, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S_, .i32⟩
  | .hbm, ⟨30, _⟩ => ⟨S2048x8, .i32⟩
  | .hbm, ⟨31, _⟩ => ⟨S2048x8, .i1⟩
  | .hbm, ⟨32, _⟩ => ⟨S_, .i32⟩
  | .hbm, ⟨33, _⟩ => ⟨S2048x8, .i32⟩
  | .hbm, ⟨34, _⟩ => ⟨S2048x8, .i32⟩
  | .hbm, ⟨35, _⟩ => ⟨S2048x8, .i32⟩
  | .hbm, ⟨36, _⟩ => ⟨S2048x8x1, .i32⟩
  | .hbm, ⟨37, _⟩ => ⟨S1, .i32⟩
  | .hbm, ⟨38, _⟩ => ⟨S_, .i32⟩
  | .hbm, ⟨39, _⟩ => ⟨S2048x8x1, .i32⟩
  | .hbm, ⟨40, _⟩ => ⟨S2048x8x1, .i1⟩
  | .hbm, ⟨41, _⟩ => ⟨S1x1x1, .i32⟩
  | .hbm, ⟨42, _⟩ => ⟨S2048x8x1, .i32⟩
  | .hbm, ⟨43, _⟩ => ⟨S2048x8x1, .i1⟩
  | .hbm, ⟨44, _⟩ => ⟨S2048x8x1, .i1⟩
  | .hbm, ⟨45, _⟩ => ⟨S_, .i1⟩
  | .hbm, ⟨46, _⟩ => ⟨S2048x8, .i1⟩
  | .hbm, ⟨47, _⟩ => ⟨S256x2048x8, .f32⟩
  | .hbm, ⟨48, _⟩ => ⟨S256x2048x8, .i1⟩
  | .hbm, ⟨49, _⟩ => ⟨S_, .f32⟩
  | .hbm, ⟨50, _⟩ => ⟨S256x2048x8, .f32⟩
  | .hbm, ⟨51, _⟩ => ⟨S256x2048x8, .f32⟩
  | .hbm, ⟨52, _⟩ => ⟨S2048x8x256, .f32⟩
  | .hbm, ⟨53, _⟩ => ⟨S2048x8x1, .f32⟩
  | .hbm, ⟨54, _⟩ => ⟨S2048x8x256, .f32⟩
  | .hbm, ⟨55, _⟩ => ⟨S2048x8x256, .f32⟩
  | .hbm, ⟨56, _⟩ => ⟨S_, .f32⟩
  | .hbm, ⟨57, _⟩ => ⟨S2048x256, .f32⟩
  | .hbm, ⟨58, _⟩ => ⟨S1x256, .f32⟩
  | .hbm, ⟨59, _⟩ => ⟨S2048x256, .f32⟩
  | .hbm, ⟨60, _⟩ => ⟨S2048x256, .f32⟩
  | .hbm, ⟨61, _⟩ => ⟨S_, .f32⟩
  | .hbm, ⟨62, _⟩ => ⟨S2048x256, .f32⟩
  | .hbm, ⟨63, _⟩ => ⟨S2048x256, .f32⟩
  | .hbm, ⟨64, _⟩ => ⟨S2048x256, .bf16⟩
  | .hbm, ⟨65, _⟩ => ⟨S1x50000, .f32⟩
  | .hbm, ⟨66, _⟩ => ⟨S2048x50000, .f32⟩
  | .local _ .vmem, ⟨0, _⟩ => ⟨S1024x256, .bf16⟩
  | .local _ .vmem, ⟨1, _⟩ => ⟨S1024x256, .bf16⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_2 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S2048x8_S2048x8x1_0_1 : S2048x8.BroadcastsInDim S2048x8x1 (![0, 1] : Fin 2 → Fin S2048x8x1.rank)
  bcast_S2048x8_S2048x1x8_0_2 : S2048x8.BroadcastsInDim S2048x1x8 (![0, 2] : Fin 2 → Fin S2048x1x8.rank)
  bcast_S2048x8x1_S2048x8x8_0_1_2 : S2048x8x1.BroadcastsInDim S2048x8x8 (![0, 1, 2] : Fin 3 → Fin S2048x8x8.rank)
  bcast_S2048x1x8_S2048x8x8_0_1_2 : S2048x1x8.BroadcastsInDim S2048x8x8 (![0, 1, 2] : Fin 3 → Fin S2048x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  bcast_S8x1_S8x8_0_1 : S8x1.BroadcastsInDim S8x8 (![0, 1] : Fin 2 → Fin S8x8.rank)
  bcast_S8x8_S1x8x8_1_2 : S8x8.BroadcastsInDim S1x8x8 (![1, 2] : Fin 2 → Fin S1x8x8.rank)
  bcast_S1x8x8_S2048x8x8_0_1_2 : S1x8x8.BroadcastsInDim S2048x8x8 (![0, 1, 2] : Fin 3 → Fin S2048x8x8.rank)
  reducesTo_S2048x8x8_S2048x8_d2 : S2048x8x8.ReducesTo [2] S2048x8
  h_S_ : 0 < S_.numel
  bcast_S_S2048x8 : S_.BroadcastsInDim S2048x8 (![] : Fin 0 → Fin S2048x8.rank)
  bcast_S_S2048x8x1 : S_.BroadcastsInDim S2048x8x1 (![] : Fin 0 → Fin S2048x8x1.rank)
  bcast_S1_S1x1x1_2 : S1.BroadcastsInDim S1x1x1 (![2] : Fin 1 → Fin S1x1x1.rank)
  bcast_S1x1x1_S2048x8x1_0_1_2 : S1x1x1.BroadcastsInDim S2048x8x1 (![0, 1, 2] : Fin 3 → Fin S2048x8x1.rank)
  reducesTo_S2048x8x1_S2048x8_d2 : S2048x8x1.ReducesTo [2] S2048x8
  bcast_S2048x8_S256x2048x8_1_2 : S2048x8.BroadcastsInDim S256x2048x8 (![1, 2] : Fin 2 → Fin S256x2048x8.rank)
  bcast_S_S256x2048x8 : S_.BroadcastsInDim S256x2048x8 (![] : Fin 0 → Fin S256x2048x8.rank)
  transposes_S256x2048x8_S2048x8x256_1_2_0 : S256x2048x8.Transposes [1, 2, 0] S2048x8x256
  bcast_S2048x8x1_S2048x8x256_0_1_2 : S2048x8x1.BroadcastsInDim S2048x8x256 (![0, 1, 2] : Fin 3 → Fin S2048x8x256.rank)
  reducesTo_S2048x8x256_S2048x256_d1 : S2048x8x256.ReducesTo [1] S2048x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bitsLt_bf16_f32 : FTy.bits .bf16 < FTy.bits .f32
  shapeCasts_S50000_S1x50000 : S50000.ShapeCasts S1x50000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  gather_S256x50000_S2048x8x1_S256x2048x8_0_1_n_n_1_2_2561_wf : GatherDims.WF S256x50000 S2048x8x1 S256x2048x8 [0] [1] [] [1] [] 2 ![256, 1]
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .bf16 = 32 ∨ (Rect.block (s := S2048x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S50000x256.size a
  hwx0_1 : ∀ i : grid0.Coords, EltTy.bits .f32 = 32 ∨ (Rect.unit (s := S50000x256) (fun a => cc0_transform_1 i a * S2048x256.size a) (fun a => (Pipeline.Clip.of (cc0_transform_1 i a) (S2048x256.size a) (S50000x256.size a)).extent (S2048x256.size a)) fun a => Pipeline.Clip.inb (Pipeline.Clip.ok_of (hstart0_1 i a))).WholeWords (EltTy.packing .f32)
  hwxs0_1 : ∀ i : grid0.Coords, EltTy.bits .f32 = 32 ∨ (Rect.unit (s := S2048x256) (fun _ => 0) (fun a => (Pipeline.Clip.of (cc0_transform_1 i a) (S2048x256.size a) (S50000x256.size a)).extent (S2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x50000.size a
  hwx0_2 : ∀ i : grid0.Coords, EltTy.bits .f32 = 32 ∨ (Rect.unit (s := S1x50000) (fun a => cc0_transform_2 i a * S1x2048.size a) (fun a => (Pipeline.Clip.of (cc0_transform_2 i a) (S1x2048.size a) (S1x50000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x50000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S2048x50000.size a
  hwx0_3 : ∀ i : grid0.Coords, EltTy.bits .f32 = 32 ∨ (Rect.unit (s := S2048x50000) (fun a => cc0_transform_3 i a * S1024x2048.size a) (fun a => (Pipeline.Clip.of (cc0_transform_3 i a) (S1024x2048.size a) (S2048x50000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S2048x50000.size a)).extent (S1024x2048.size a)) fun a => (Nat.zero_add _).trans_le (Pipeline.Clip.extent_le (Pipeline.Clip.ok_of (hstart0_3 i a)))).WholeWords (EltTy.packing .f32)

variable [Facts₀]

def gather_S256x50000_S2048x8x1_S256x2048x8_0_1_n_n_1_2_2561 : GatherDims S256x50000 S2048x8x1 S256x2048x8 where
  offsetDims := [0]
  collapsedSliceDims := [1]
  operandBatchingDims := []
  startIndicesBatchingDims := []
  startIndexMap := [1]
  indexVectorDim := 2
  sliceSizes := ![256, 1]
  wf := gather_S256x50000_S2048x8x1_S256x2048x8_0_1_n_n_1_2_2561_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v30) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v31) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v32) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8 : Shape := ⟨2, ![2048, 8]⟩
abbrev S256x50000 : Shape := ⟨2, ![256, 50000]⟩
abbrev S256 : Shape := ⟨1, ![256]⟩
abbrev S50000x256 : Shape := ⟨2, ![50000, 256]⟩
abbrev S50000 : Shape := ⟨1, ![50000]⟩
abbrev S2048 : Shape := ⟨1, ![2048]⟩
abbrev S16384 : Shape := ⟨1, ![16384]⟩
abbrev S_ : Shape := ⟨0, ![]⟩
abbrev S2048x50000 : Shape := ⟨2, ![2048, 50000]⟩
abbrev S16384x1 : Shape := ⟨2, ![16384, 1]⟩
abbrev S16384x2 : Shape := ⟨2, ![16384, 2]⟩
abbrev S2048x256 : Shape := ⟨2, ![2048, 256]⟩
abbrev S1x256 : Shape := ⟨2, ![1, 256]⟩
abbrev S1x50000 : Shape := ⟨2, ![1, 50000]⟩

abbrev nBuf : Space → Nat
  | .hbm => 44
  | .vmem => 0
  | .smem => 0
  | _ => 0

abbrev bufTy : (tb : Table) → Fin (tcTables nBuf tb) → BufTy
  | .hbm, ⟨0, _⟩ => ⟨S2048x8, .i32⟩
  | .hbm, ⟨1, _⟩ => ⟨S256x50000, .f32⟩
  | .hbm, ⟨2, _⟩ => ⟨S256, .f32⟩
  | .hbm, ⟨3, _⟩ => ⟨S50000x256, .f32⟩
  | .hbm, ⟨4, _⟩ => ⟨S50000, .f32⟩
  | .hbm, ⟨5, _⟩ => ⟨S2048, .i32⟩
  | .hbm, ⟨6, _⟩ => ⟨S2048x8, .i32⟩
  | .hbm, ⟨7, _⟩ => ⟨S16384, .i32⟩
  | .hbm, ⟨8, _⟩ => ⟨S16384, .i32⟩
  | .hbm, ⟨9, _⟩ => ⟨S_, .f32⟩
  | .hbm, ⟨10, _⟩ => ⟨S2048x50000, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x1, .i32⟩
  | .hbm, ⟨27, _⟩ => ⟨S16384x2, .i32⟩
  | .hbm, ⟨28, _⟩ => ⟨S_, .f32⟩
  | .hbm, ⟨29, _⟩ => ⟨S16384, .f32⟩
  | .hbm, ⟨30, _⟩ => ⟨S2048x50000, .f32⟩
  | .hbm, ⟨31, _⟩ => ⟨S50000x256, .f32⟩
  | .hbm, ⟨32, _⟩ => ⟨S2048x256, .f32⟩
  | .hbm, ⟨33, _⟩ => ⟨S1x256, .f32⟩
  | .hbm, ⟨34, _⟩ => ⟨S2048x256, .f32⟩
  | .hbm, ⟨35, _⟩ => ⟨S2048x256, .f32⟩
  | .hbm, ⟨36, _⟩ => ⟨S_, .f32⟩
  | .hbm, ⟨37, _⟩ => ⟨S2048x256, .f32⟩
  | .hbm, ⟨38, _⟩ => ⟨S2048x256, .f32⟩
  | .hbm, ⟨39, _⟩ => ⟨S256x50000, .f32⟩
  | .hbm, ⟨40, _⟩ => ⟨S2048x50000, .f32⟩
  | .hbm, ⟨41, _⟩ => ⟨S1x50000, .f32⟩
  | .hbm, ⟨42, _⟩ => ⟨S2048x50000, .f32⟩
  | .hbm, ⟨43, _⟩ => ⟨S2048x50000, .f32⟩
  | _, _ => ⟨S2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S2048_S2048x8_0 : S2048.BroadcastsInDim S2048x8 (![0] : Fin 1 → Fin S2048x8.rank)
  shapeCasts_S2048x8_S16384 : S2048x8.ShapeCasts S16384
  bcast_S_S2048x50000 : S_.BroadcastsInDim S2048x50000 (![] : Fin 0 → Fin S2048x50000.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  transposes_S256x50000_S50000x256_1_0 : S256x50000.Transposes [1, 0] S50000x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S2048x50000_0_1 : S1x50000.BroadcastsInDim S2048x50000 (![0, 1] : Fin 2 → Fin S2048x50000.rank)
  scatter_S2048x50000_S16384x2_S16384_n_01_01_1_wf : ScatterDims.WF S2048x50000 S16384x2 S16384 [] [0, 1] [0, 1] 1
  dot_S2048x50000_S50000x256_S2048x256_1_0_0_1_n_n_wf : DotDims.WF S2048x50000 S50000x256 S2048x256 [1] [0] [0] [1] [] []
  dot_S2048x256_S256x50000_S2048x50000_1_0_0_1_n_n_wf : DotDims.WF S2048x256 S256x50000 S2048x50000 [1] [0] [0] [1] [] []

variable [Facts₀]

def scatter_S2048x50000_S16384x2_S16384_n_01_01_1 : ScatterDims S2048x50000 S16384x2 S16384 where
  updateWindowDims := []
  insertedWindowDims := [0, 1]
  scatterDimsToOperandDims := [0, 1]
  indexVectorDim := 1
  wf := scatter_S2048x50000_S16384x2_S16384_n_01_01_1_wf
def dot_S2048x50000_S50000x256_S2048x256_1_0_0_1_n_n : DotDims S2048x50000 S50000x256 S2048x256 where
  lhsContracting := [1]
  rhsContracting := [0]
  lhsNonContracting := [0]
  rhsNonContracting := [1]
  lhsBatch := []
  rhsBatch := []
  wf := dot_S2048x50000_S50000x256_S2048x256_1_0_0_1_n_n_wf
def dot_S2048x256_S256x50000_S2048x50000_1_0_0_1_n_n : DotDims S2048x256 S256x50000 S2048x50000 where
  lhsContracting := [1]
  rhsContracting := [0]
  lhsNonContracting := [0]
  rhsNonContracting := [1]
  lhsBatch := []
  rhsBatch := []
  wf := dot_S2048x256_S256x50000_S2048x50000_1_0_0_1_n_n_wf

class Facts : Prop extends Facts₀ where

variable [Facts]
-- ==== Proof.Spec.lean ====
/-
  The function both programs compute, written once over the argument arrays.

  A row n of the token array holds eight tokens. Position j carries the weight 1/8 when its token
  has not occurred at an earlier position of the row and the weight 0 otherwise, so every DISTINCT
  token of the row is counted once. The hidden layer is
      hid[n, d] = max (sum_j wt[n, j] * W1[d, tok[n, j]] + b1[d]) 0
  and the output
      out[n, v] = sum_k hid[n, k] * W2[v, k] + b2[v].
  The tokens are read as columns of W1; a token word is in range when it is below 50000 as an
  unsigned number (which is 0 <= x < 50000 read signed).
-/
import Idealize.ShloMosaic.PureOps.Ideal
import Idealize.ShloMosaic.Lib.ValueIdx

noncomputable section

open scoped BigOperators

namespace Cert.Cbow

open Idealize.ShloMosaic Idealize.ShloMosaic.ValueIdx

abbrev SX : Shape := ⟨2, ![2048, 8]⟩
abbrev SW1 : Shape := ⟨2, ![256, 50000]⟩
abbrev SB1 : Shape := ⟨1, ![256]⟩
abbrev SW2 : Shape := ⟨2, ![50000, 256]⟩
abbrev SB2 : Shape := ⟨1, ![50000]⟩
abbrev SH : Shape := ⟨2, ![2048, 256]⟩
abbrev SO : Shape := ⟨2, ![2048, 50000]⟩

/-- Every token word is a column of W1: below 50000 as an unsigned number. -/
def InRange (x : IVec SX 32) : Prop := ∀ i : SX.Idx, (x i).toNat < 50000

/-- The token at row `n`, position `j`, as a column of W1 (the word itself when it is in range). -/
def tok (x : IVec SX 32) (n : Fin 2048) (j : Fin 8) : Fin 50000 :=
  ⟨(x (ix2 n j)).toNat % 50000, Nat.mod_lt _ (by norm_num)⟩

/-- Position `j` is the first occurrence of its token in row `n`. -/
def IsFirst (x : IVec SX 32) (n : Fin 2048) (j : Fin 8) : Prop :=
  ∀ k : Fin 8, k < j → x (ix2 n k) ≠ x (ix2 n j)

/-- The weight every distinct token carries: the f32 word of 1/8. -/
def c8 : EReal := Ideal.ofBits .f32 0x3E000000#32

open Classical in
/-- The weight of position `j` of row `n`: 1/8 at a first occurrence, 0 at a repeat. -/
def wt (x : IVec SX 32) (n : Fin 2048) (j : Fin 8) : EReal := if IsFirst x n j then c8 else 0

/-- The hidden layer at row `n`, unit `d`. -/
def hidAt (x : IVec SX 32) (W1 : FVec Ideal SW1 .f32) (b1 : FVec Ideal SB1 .f32) (n : Fin 2048) (d : Fin 256) : EReal :=
  max (∑ j : Fin 8, wt x n j * W1 (ix2 d (tok x n j)) + b1 (ix1 d)) 0

/-- The output at row `n`, vocabulary entry `v`. -/
def outAt (x : IVec SX 32) (W1 : FVec Ideal SW1 .f32) (b1 : FVec Ideal SB1 .f32) (W2 : FVec Ideal SW2 .f32)
    (b2 : FVec Ideal SB2 .f32) (n : Fin 2048) (v : Fin 50000) : EReal :=
  ∑ k : Fin 256, hidAt x W1 b1 n k * W2 (ix2 v k) + b2 (ix1 v)

/-- The hidden layer as an array. -/
def hid (x : IVec SX 32) (W1 : FVec Ideal SW1 .f32) (b1 : FVec Ideal SB1 .f32) : FVec Ideal SH .f32 :=
  fun i => hidAt x W1 b1 (i 0) (i 1)

/-- The output as an array. -/
def G (x : IVec SX 32) (W1 : FVec Ideal SW1 .f32) (b1 : FVec Ideal SB1 .f32) (W2 : FVec Ideal SW2 .f32)
    (b2 : FVec Ideal SB2 .f32) : FVec Ideal SO .f32 :=
  fun i => outAt x W1 b1 W2 b2 (i 0) (i 1)

theorem hid_ix2 (x : IVec SX 32) (W1 : FVec Ideal SW1 .f32) (b1 : FVec Ideal SB1 .f32) (n : Fin 2048) (d : Fin 256) :
    hid x W1 b1 (ix2 n d) = hidAt x W1 b1 n d := rfl

theorem G_ix2 (x : IVec SX 32) (W1 : FVec Ideal SW1 .f32) (b1 : FVec Ideal SB1 .f32) (W2 : FVec Ideal SW2 .f32)
    (b2 : FVec Ideal SB2 .f32) (n : Fin 2048) (v : Fin 50000) :
    G x W1 b1 W2 b2 (ix2 n v) = outAt x W1 b1 W2 b2 n v := rfl

/-- In range, the token is the word itself. -/
theorem tok_val (x : IVec SX 32) (hx : InRange x) (n : Fin 2048) (j : Fin 8) :
    (tok x n j).val = (x (ix2 n j)).toNat := Nat.mod_eq_of_lt (hx _)

end Cert.Cbow

end
-- ==== Proof.PreRange.lean ====
/-
  The added precondition read back: every token word is a column index of W1.
-/
import proofs.«426636_j893353198128_3_alg».proof.Pre_finite_inputs
import proofs.«426636_j893353198128_3_alg».proof.Proof.Spec
import Idealize.ShloMosaic.Lib.StableHlo.Predicate
import Idealize.ShloMosaic.Lib.ReduceAll

noncomputable section

namespace Cert.Cbow

open Idealize.ShloMosaic Idealize.ShloMosaic.ValueIdx

/-- A 32-bit word that is at least 0 and below 50000 when read signed has its top bit clear, so its unsigned
    value is the same number and is below 50000. -/
theorem toNat_lt_of_signed_bounds (a : BitVec 32) (h0 : (0#32 : BitVec 32).toInt ≤ a.toInt)
    (h1 : a.toInt < (50000#32 : BitVec 32).toInt) : a.toNat < 50000 := by
  rw [show (0#32 : BitVec 32).toInt = 0 from by decide] at h0
  rw [show (50000#32 : BitVec 32).toInt = 50000 from by decide] at h1
  have hlt : 2 * a.toNat < 2 ^ 32 := BitVec.toInt_pos_iff.1 h0
  rw [BitVec.toInt_eq_toNat_of_lt hlt] at h1
  omega

/-- The tail of the precondition, over ANY values of the two words it receives from the float conjuncts: when its
    word is 1, the conjunction's last factor is 1, that factor is the "and" over all 2048 × 8 positions of
    (0 ≤ x) ∧ (x < 50000) compared signed, so both comparisons hold at every position. -/
theorem inRange_of_tail [Cert.Pre_finite_inputs.Facts] {F : FTy → Type} [FloatOps F]
    (x : IVec SX 32) (c : IVec Cert.Pre_finite_inputs.S_ 1) (m : IVec Cert.Pre_finite_inputs.S50000 1)
    (h : Cert.Pre_finite_inputs.fn_part1 (F := F) x c m ix0 = 1#1) : InRange x := by
  intro i
  unfold Cert.Pre_finite_inputs.fn_part1 at h
  dsimp only at h
  -- the outer "and": keep its second factor, the reduction over the token array
  have hall := (IntOp.andi_eq_one.1 h).2
  -- the shape with no axes has exactly one index, so the reduction's result is one word;
  -- a reduction by "and" over both axes that is 1 saw a 1 at every position
  haveI : Subsingleton Cert.Pre_finite_inputs.S_.Idx := ⟨fun _ _ => funext fun d => d.elim0⟩
  have hi := Host.reduce_andi_all _ _ _ _ _ hall i
  -- at position i the word is the "and" of the two comparisons
  obtain ⟨hge, hlt⟩ := IntOp.andi_eq_one.1 hi
  -- each comparison is against a constant laid over the whole array, which reads the constant at i
  have hge' : (0#32 : BitVec 32).toInt ≤ (x i).toInt := IntOp.cmpi_sge.1 hge
  have hlt' : (x i).toInt < (50000#32 : BitVec 32).toInt := IntOp.cmpi_slt.1 hlt
  exact toNat_lt_of_signed_bounds (x i) hge' hlt'

/-- When the precondition's word is 1, its last conjunct holds: every token is at least 0 and below 50000 read
    signed, that is, below 50000 read unsigned. -/
theorem inRange_of_pre [Cert.Pre_finite_inputs.Facts] {F : FTy → Type} [FloatOps F]
    (x : IVec SX 32) (W1 : FVec F SW1 .f32) (b1 : FVec F SB1 .f32) (W2 : FVec F SW2 .f32) (b2 : FVec F SB2 .f32)
    (h : Cert.Pre_finite_inputs.fn (F := F) x W1 b1 W2 b2 = fun _ => 1#1) : InRange x := by
  have h0 := congrFun h ix0
  -- the precondition is its tail applied to the two words the float conjuncts produce; those stay closed
  unfold Cert.Pre_finite_inputs.fn at h0
  exact inRange_of_tail (F := F) x _ _ h0

end Cert.Cbow

end
-- ==== Proof.DataB.lean ====
/-
  What the staging buffers hold after the body at each grid point, and the proof data built from it.

  The grid has 25 x 2 points (vocabulary tile kk outermost, batch tile ii innermost). At point (kk, ii) the body
  reads rows 1024*ii .. 1024*ii+1023 of the hidden layer, rows 2048*kk .. of W2 and columns 2048*kk .. of the
  bias row, and writes the 1024 x 2048 tile of the output. The last vocabulary tile (kk = 24) holds only 848
  valid rows (columns): the rest of the W2, bias and output buffers lies past the arrays' end and is never moved.
  Past the end the blocks below are filled out with the zero word; nothing reads what is there.
-/
import proofs.«426636_j893353198128_3_alg».proof.Proof.Gen.Kernel.Frame
import proofs.«426636_j893353198128_3_alg».proof.Proof.Gen.Kernel.Skeleton

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The hidden layer's block at point `t`: 1024 rows, all 256 units. -/
def hblk (c : Dev nD) (t : Fin cfg0.N) : S1024x256.Idx → Elt F .bf16 := iblk m c 0 t

/-- W2's block at point `t`, filled out with the zero word past the array's last row. -/
def wblk (c : Dev nD) (t : Fin cfg0.N) : S2048x256.Idx → Elt F .f32 :=
  win0_1.fill (grid0.coords t) (fun _ => Scalar.ofBits .f32 0#32) (iblk m c 1 t)

/-- The bias row's block at point `t`, filled out with the zero word past the array's last column. -/
def bblk (c : Dev nD) (t : Fin cfg0.N) : S1x2048.Idx → Elt F .f32 :=
  win0_2.fill (grid0.coords t) (fun _ => Scalar.ofBits .f32 0#32) (iblk m c 2 t)

/-- The output tile the body computes from those three blocks: the product of the hidden block with the
    transposed W2 block, plus the bias row on every row. -/
def oblk (c : Dev nD) (t : Fin cfg0.N) : S1024x2048.Idx → Elt F .f32 :=
  k0_pay1 (hblk m c t) (wblk m c t) (bblk m c t)

/-- The proof data of the one pipeline: the arrays as the region finds them; after the body the three input
    buffers at their blocks and the output's at the computed tile; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => wblk m c t
    | ⟨2, _⟩ => bblk m c t
    | ⟨3, _⟩ => oblk m c t
  Φ _ := Pipeline.ΦA spec0 c
  q _ := fullShare
  owed _ := 0

theorem dats_A (c : Dev nD) (w : Fin cfg0.W) : (dats m 0 c).A w = V m c (Pipeline.arrRef spec0 w) := rfl
theorem dats_after0 (c : Dev nD) (t : Fin cfg0.N) : (dats m 0 c).after 0 t = hblk m c t := rfl
theorem dats_after1 (c : Dev nD) (t : Fin cfg0.N) : (dats m 0 c).after 1 t = wblk m c t := rfl
theorem dats_after2 (c : Dev nD) (t : Fin cfg0.N) : (dats m 0 c).after 2 t = bblk m c t := rfl
theorem dats_after3 (c : Dev nD) (t : Fin cfg0.N) : (dats m 0 c).after 3 t = oblk m c t := rfl

end Cert.Kernel.Hand

end
-- ==== Proof.FrameB.lean ====
/-
  The kernel body on its staging buffers at any instance, and the frame: the program ends, faults nowhere and
  leaves its arguments as launched.

  The body loads the whole of the three input buffers, computes the tile and stores it whole into the output's
  buffer. W2's window, the bias row's and the output's are cut at the arrays' end in the last vocabulary tile, so of
  W2's and the bias row's buffers only the part inside the array is known when the body runs — and at a word-level
  instance the tile's entries inside the array are no function of that part alone. The frame therefore says nothing
  of the output's buffer: its window is forgotten, and the input arrays are read back at the end as they were found.
-/
import proofs.«426636_j893353198128_3_alg».proof.Proof.DataB
import Idealize.ShloMosaic.Lib.Pipeline.Kit
import Idealize.ShloMosaic.Lib.Pipeline.Frame
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-! ## The kernel body on its staging buffers -/

set_option maxHeartbeats 4000000 in
/-- The kernel body on staging buffers `s0` … `s3` of the four windows: three whole loads, the tile computed from
    them, a dead load of the output's buffer and the whole store. The output's buffer ends holding the tile computed
    from what the three input buffers hold, whatever it held; those are unchanged. -/
theorem sound_body (c : Dev nD) (E : Set ℕ) (i : grid0.Coords) (s0 s1 s2 s3 : Fin 2)
    (X0 : S1024x256.Idx → Elt F .bf16) (X1 : S2048x256.Idx → Elt F .f32) (X2 : S1x2048.Idx → Elt F .f32)
    (X3 : S1024x2048.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__kernel_b i (stage0_0 s0) (hstage0_0 s0) (stage0_1 s1) (hstage0_1 s1) (stage0_2 s2) (hstage0_2 s2)
            (stage0_3 s3) (hstage0_3 s3)) K := by
  -- every access is at offsets zero and the buffer's own extents: a load reads the contents, the unmasked store
  -- writes the payload, at whichever of its window's two buffers each memref is
  have hz : (![0, 0] : Fin 2 → Nat) = fun _ => 0 := funext fun a => by fin_cases a <;> rfl
  have r00 : (Memref.whole cc0_stg0_0 : Memref sig .tc _ _ _).view.readAt (Elt F) (Rect.unit (s := S1024x256) ![0, 0] S1024x256.size
      inb_S1024x256_S1024x256_0_0).toLoadRect = id := funext (Memref.readAt_unit_zero (Elt F) cc0_stg0_0 hz _)
  have r01 : (Memref.whole cc0_stg0_1 : Memref sig .tc _ _ _).view.readAt (Elt F) (Rect.unit (s := S1024x256) ![0, 0] S1024x256.size
      inb_S1024x256_S1024x256_0_0).toLoadRect = id := funext (Memref.readAt_unit_zero (Elt F) cc0_stg0_1 hz _)
  have r10 : (Memref.whole cc0_stg1_0 : Memref sig .tc _ _ _).view.readAt (Elt F) (Rect.unit (s := S2048x256) ![0, 0] S2048x256.size
      inb_S2048x256_S2048x256_0_0).toLoadRect = id := funext (Memref.readAt_unit_zero (Elt F) cc0_stg1_0 hz _)
  have r11 : (Memref.whole cc0_stg1_1 : Memref sig .tc _ _ _).view.readAt (Elt F) (Rect.unit (s := S2048x256) ![0, 0] S2048x256.size
      inb_S2048x256_S2048x256_0_0).toLoadRect = id := funext (Memref.readAt_unit_zero (Elt F) cc0_stg1_1 hz _)
  have r20 : (Memref.whole cc0_stg2_0 : Memref sig .tc _ _ _).view.readAt (Elt F) (Rect.unit (s := S1x2048) ![0, 0] S1x2048.size
      inb_S1x2048_S1x2048_0_0).toLoadRect = id := funext (Memref.readAt_unit_zero (Elt F) cc0_stg2_0 hz _)
  have r21 : (Memref.whole cc0_stg2_1 : Memref sig .tc _ _ _).view.readAt (Elt F) (Rect.unit (s := S1x2048) ![0, 0] S1x2048.size
      inb_S1x2048_S1x2048_0_0).toLoadRect = id := funext (Memref.readAt_unit_zero (Elt F) cc0_stg2_1 hz _)
  have w30 : ∀ f w, (((Memref.whole cc0_stg3_0).access (Rect.unit (s := S1024x2048) ![0, 0] S1024x2048.size inb_S1024x2048_S1024x2048_0_0)) :
      View sig .tc _ _ _).write (Elt F) f w Finset.univ = w := Memref.write_access_unit_zero_univ (Elt F) cc0_stg3_0 hz _
  have w31 : ∀ f w, (((Memref.whole cc0_stg3_1).access (Rect.unit (s := S1024x2048) ![0, 0] S1024x2048.size inb_S1024x2048_S1024x2048_0_0)) :
      View sig .tc _ _ _).write (Elt F) f w Finset.univ = w := Memref.write_access_unit_zero_univ (Elt F) cc0_stg3_1 hz _
  fin_cases s0 <;> fin_cases s1 <;> fin_cases s2 <;> fin_cases s3 <;>
  · simp only [owns_whole_eq, cc0__kernel_b_eq_skeleton]; unfold cc0__kernel_b_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    first | rw [r00] | rw [r01]
    first | rw [r10] | rw [r11]
    first | rw [r20] | rw [r21]
    first | rw [w30] | rw [w31]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3

/-! ## What the clipped input windows hold when the body runs -/

variable (m : (ℓ : Loc nD τ sig) → Buf (Elt F) ℓ)

/-- The point before `t` (point 0 for point 0). -/
abbrev prev (t : Fin cfg0.N) : Fin cfg0.N := ⟨t.val - 1, Nat.lt_of_le_of_lt (Nat.sub_le _ _) t.isLt⟩

/-- An input window whose body leaves its block in place, and whose block index and clip extents do not move between
    a point that does not fetch it and the point before: on the part its transfers move, its current buffer holds
    its block at every point. At a point that fetches, the fetch has just put the block there. At one that does not,
    the buffer is as the point before left it, holding that point's block on the same part; the entry of the array
    under a moved entry of the buffer is block index times block size plus the entry's coordinate, the same at
    both points. -/
theorem cut_before (c : Dev nD) (w : Fin cfg0.W) (hw : (cfg0.win w).isOut = false)
    (hafter : ∀ t, (cfg0.win w).cut (grid0.coords t) ((dats m 0 c).after w t) = iblk m c w t)
    (hsame : ∀ t : Fin cfg0.N, (cfg0.win w).fetch t = false → ∀ a,
      (cfg0.win w).index (prev t) a = (cfg0.win w).index t a
        ∧ (cfg0.win w).xsize (grid0.coords (prev t)) a = (cfg0.win w).xsize (grid0.coords t) a)
    (t : Fin cfg0.N) (d) :
    (cfg0.win w).cut (grid0.coords t) ((dats m 0 c).before w t d) = iblk m c w t := by
  by_cases hf : (cfg0.win w).fetch t = true
  · rw [(dats m 0 c).before_fetched w t hf]
    exact (cfg0.win w).cut_fill _ _ _
  · have hf' : (cfg0.win w).fetch t = false := by simpa using hf
    rw [(dats m 0 c).before_unfetched_in w hw t hf' (fun _ => rfl)]
    funext j
    show (cfg0.win w).fill (grid0.coords (prev t)) d ((cfg0.win w).cut (grid0.coords (prev t)) ((dats m 0 c).after w (prev t)))
        ((cfg0.win w).xinj (grid0.coords t) j) = iblk m c w t j
    rw [hafter]
    have hm : (cfg0.win w).moved (grid0.coords (prev t)) ((cfg0.win w).xinj (grid0.coords t) j) = true :=
      ((cfg0.win w).moved_iff _ _).mpr fun a => by rw [(hsame t hf' a).2]; exact (j a).isLt
    unfold Window.fill; rw [dif_pos hm]
    unfold iblk
    rw [View.read_apply, View.read_apply]
    have key : ((cfg0.win w).blk (prev t)).view.emb (fun a => ⟨((cfg0.win w).xinj (grid0.coords t) j a).val,
          ((cfg0.win w).moved_iff _ _).mp hm a⟩) = ((cfg0.win w).blk t).view.emb j := by
      show (cfg0.win w).arr.view.emb (((cfg0.win w).rect (prev t)).emb _) = (cfg0.win w).arr.view.emb (((cfg0.win w).rect t).emb j)
      congr 1
      funext a; apply Fin.ext
      rw [Rect.emb_apply, Rect.emb_apply]
      show (cfg0.win w).index (prev t) a * (cfg0.win w).size a + 1 * (j a).val
          = (cfg0.win w).index t a * (cfg0.win w).size a + 1 * (j a).val
      rw [(hsame t hf' a).1]
    rw [key]

/-- W2's window and the bias row's read the vocabulary tile alone, which moves every second point: at the points
    that do not fetch them, block index and clip extents are the point before's. -/
theorem same1 : ∀ t : Fin cfg0.N, (cfg0.win 1).fetch t = false → ∀ a,
      (cfg0.win 1).index (prev t) a = (cfg0.win 1).index t a
        ∧ (cfg0.win 1).xsize (grid0.coords (prev t)) a = (cfg0.win 1).xsize (grid0.coords t) a :=
  (by decide +kernel : ∀ t : Fin grid0.N, win0_1.fetch t = false → ∀ a : Fin 2,
      win0_1.index (prev t) a = win0_1.index t a
        ∧ win0_1.xsize (grid0.coords (prev t)) a = win0_1.xsize (grid0.coords t) a)
theorem same2 : ∀ t : Fin cfg0.N, (cfg0.win 2).fetch t = false → ∀ a,
      (cfg0.win 2).index (prev t) a = (cfg0.win 2).index t a
        ∧ (cfg0.win 2).xsize (grid0.coords (prev t)) a = (cfg0.win 2).xsize (grid0.coords t) a :=
  (by decide +kernel : ∀ t : Fin grid0.N, win0_2.fetch t = false → ∀ a : Fin 2,
      win0_2.index (prev t) a = win0_2.index t a
        ∧ win0_2.xsize (grid0.coords (prev t)) a = win0_2.xsize (grid0.coords t) a)

/-- On the rows inside the array, W2's buffer holds W2's block when the body runs, -/
theorem cut_before1 (c : Dev nD) (t : Fin cfg0.N) (d) :
    win0_1.cut (grid0.coords t) ((dats m 0 c).before 1 t d) = win0_1.cut (grid0.coords t) (wblk m c t) :=
  (cut_before m c 1 rfl (fun t => win0_1.cut_fill _ _ _) same1 t d).trans (win0_1.cut_fill _ _ _).symm
/-- and on the columns inside the array the bias row's buffer holds the bias block. -/
theorem cut_before2 (c : Dev nD) (t : Fin cfg0.N) (d) :
    win0_2.cut (grid0.coords t) ((dats m 0 c).before 2 t d) = win0_2.cut (grid0.coords t) (bblk m c t) :=
  (cut_before m c 2 rfl (fun t => win0_2.cut_fill _ _ _) same2 t d).trans (win0_2.cut_fill _ _ _).symm

/-! ## The body at a grid point -/

/-- The body at point `t` on the current staging buffers, each input's holding what the pipeline left there and
    the output's anything: the hidden layer's buffer is left holding its block (it held it: the window is uncut and
    fetched at every point); W2's and the bias row's are left as found, which on the part inside the array is their
    block; the output's holds the tile computed from what the three held. -/
theorem point_core (c : Dev nD) (t : Fin cfg0.N) (d0 d1 d2) (X3 : S1024x2048.Idx → Elt F .f32) (K : PUnit → sProp 𝕄) :
    iprop((owns (c : Thread nD τ) (st0_0 t) fullShare ((dats m 0 c).before (0 : Fin 4) t d0)
          ∗ owns (c : Thread nD τ) (st0_1 t) fullShare ((dats m 0 c).before (1 : Fin 4) t d1)
          ∗ owns (c : Thread nD τ) (st0_2 t) fullShare ((dats m 0 c).before (2 : Fin 4) t d2)
          ∗ owns (c : Thread nD τ) (st0_3 t) fullShare X3)
        ∗ (iprop(owns (c : Thread nD τ) (st0_0 t) fullShare (hblk m c t)
            ∗ (∃ d, owns (c : Thread nD τ) (st0_1 t) fullShare (win0_1.fill (grid0.coords t) d (win0_1.cut (grid0.coords t) (wblk m c t))))
            ∗ (∃ d, owns (c : Thread nD τ) (st0_2 t) fullShare (win0_2.fill (grid0.coords t) d (win0_2.cut (grid0.coords t) (bblk m c t))))
            ∗ owns (c : Thread nD τ) (st0_3 t) fullShare
                (k0_pay1 ((dats m 0 c).before (0 : Fin 4) t d0) ((dats m 0 c).before (1 : Fin 4) t d1)
                  ((dats m 0 c).before (2 : Fin 4) t d2))) -∗ K ⟨⟩))
      ⊢ wp frame (wpE (defs₀ (F := F)) 𝒱₀ c none) Set.univ (bodyAt0 t) K := by
  iintro ⟨⟨H0, H1, H2, H3⟩, Hk⟩
  iapply (sound_body (F := F) c Set.univ (grid0.coords t) (cfg0.slots t 0) (cfg0.slots t 1) (cfg0.slots t 2) (cfg0.slots t 3)
    ((dats m 0 c).before (0 : Fin 4) t d0) ((dats m 0 c).before (1 : Fin 4) t d1) ((dats m 0 c).before (2 : Fin 4) t d2) X3 K)
  isplitl [H0 H1 H2 H3]
  · isplitl [H0]
    · iexact H0
    isplitl [H1]
    · iexact H1
    isplitl [H2]
    · iexact H2
    · iexact H3
  iintro ⟨H0, H1, H2, H3⟩
  iapply Hk
  isplitl [H0]
  · rw [before0_0_of m (dats m 0 c) rfl (fun _ => rfl) t d0]; iexact H0
  isplitl [H1]
  · iexists (dats m 0 c).before (1 : Fin 4) t d1
    rw [win0_1.fill_congr_cut (grid0.coords t) (cut_before1 m c t d1)]; iexact H1
  isplitl [H2]
  · iexists (dats m 0 c).before (2 : Fin 4) t d2
    rw [win0_2.fill_congr_cut (grid0.coords t) (cut_before2 m c t d2)]; iexact H2
  · iexact H3

/-! ## The frame -/

/-- The output's window is forgotten: the frame says nothing of what the kernel leaves in it. -/
def forgets : Fin 4 → Bool := fun w => w.val == 3

/-- The body obligation with the output's window forgotten: its buffer is handed over and back at some contents. -/
theorem body_any (c : Dev nD) : BodyObligationLoose (dats m 0 c) (defs₀ (F := F)) 𝒱₀ () Set.univ forgets := fun t => by
  rw [bigSep_W0, bigSep_W0]
  show iprop(Pipeline.ΦA spec0 c ∗ (dats m 0 c).owesAt () t.castSucc
        ∗ (∃ d, owns (c : Thread nD τ) (st0_0 t) fullShare ((dats m 0 c).before (0 : Fin 4) t d))
        ∗ (∃ d, owns (c : Thread nD τ) (st0_1 t) fullShare ((dats m 0 c).before (1 : Fin 4) t d))
        ∗ (∃ d, owns (c : Thread nD τ) (st0_2 t) fullShare ((dats m 0 c).before (2 : Fin 4) t d))
        ∗ (∃ X, owns (c : Thread nD τ) (st0_3 t) fullShare X))
      ⊢ wp frame (wpE (defs₀ (F := F)) 𝒱₀ c none) Set.univ (bodyAt0 t) fun _ =>
          iprop(Pipeline.ΦA spec0 c ∗ (dats m 0 c).owesAt () t.castSucc
            ∗ owns (c : Thread nD τ) (st0_0 t) fullShare (hblk m c t)
            ∗ (∃ d, owns (c : Thread nD τ) (st0_1 t) fullShare (win0_1.fill (grid0.coords t) d (win0_1.cut (grid0.coords t) (wblk m c t))))
            ∗ (∃ d, owns (c : Thread nD τ) (st0_2 t) fullShare (win0_2.fill (grid0.coords t) d (win0_2.cut (grid0.coords t) (bblk m c t))))
            ∗ (∃ X, owns (c : Thread nD τ) (st0_3 t) fullShare X))
  iintro ⟨HΦ, Ho, ⟨%d0, H0⟩, ⟨%d1, H1⟩, ⟨%d2, H2⟩, ⟨%X3, H3⟩⟩
  iapply (point_core m c t d0 d1 d2 X3 _)
  isplitl [H0 H1 H2 H3]
  · isplitl [H0]
    · iexact H0
    isplitl [H1]
    · iexact H1
    isplitl [H2]
    · iexact H2
    · iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  · iexists _; iexact H3

/-- The run with the output's window forgotten: every input array ends as the region found it, every buffer the
    pipeline does not stage likewise. -/
theorem run_any (m : (ℓ : Loc nD τ sig) → Buf (Elt F) ℓ) (ρ : Dev nD → PrngReg) :
    θ_run defs (onTc (τ := τ) (main (F := F))) (s₀ m ρ)
      (Pipeline.RDat.FramePost (cfgs 0) (fun c => (dats m 0 c).toRForget forgets) (V m)) :=
  Pipeline.RDat.θ_run_frame cfgs (0 : Fin 1) launch0 defs₀ 𝒱₀ (fun c => (dats m 0 c).toRForget forgets) m ρ main
    (hbody := fun c => (body_any m c).toRForget)
    (hshare := fun c => ((dats m 0 c).toRForget forgets).share_full fun _ => rfl) (howed := fun _ _ => rfl)
    (V := V m) (hmain := hmain m 𝒱₀) (hA := fun _ _ => rfl) (hΦ := fun _ _ => rfl)

/-- THE FRAME at any instance: the program runs to the end, faults nowhere and leaves its five arguments as
    launched (the output tile's contents are not named here). W2 is the array of the pipeline's window 1, an input:
    it ends as the region found it; the other four arguments are staged by no window; and no host operation before
    the region writes any of the five. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c (1 : Fin 4) rfl).trans (V_main_arg3 m c),
      ((h c).2 main_arg4 (Pipeline.mem_restRefs_of main_arg4 (by decide) (by decide))).trans (V_main_arg4 m c)⟩)
    (run_any m ρ)

end Cert.Kernel.Hand

end
-- ==== Proof.DataI.lean ====
/-
  What the staging buffers hold after the body at each grid point, and the proof data built from it.

  The grid has 25 x 2 points (vocabulary tile kk outermost, batch tile ii innermost). At point (kk, ii) the body
  reads rows 1024*ii .. 1024*ii+1023 of the hidden layer, rows 2048*kk .. of W2 and columns 2048*kk .. of the
  bias row, and writes the 1024 x 2048 tile of the output. The last vocabulary tile (kk = 24) holds only 848
  valid rows (columns): the rest of the W2, bias and output buffers lies past the arrays' end and is never moved.
  Past the end the blocks below are filled out with the zero word; nothing reads what is there.
-/
import proofs.«426636_j893353198128_3_alg».proof.Proof.Gen.KernelIdeal.Frame
import proofs.«426636_j893353198128_3_alg».proof.Proof.Gen.KernelIdeal.Skeleton

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The hidden layer's block at point `t`: 1024 rows, all 256 units. -/
def hblk (c : Dev nD) (t : Fin cfg0.N) : S1024x256.Idx → Elt F .bf16 := iblk m c 0 t

/-- W2's block at point `t`, filled out with the zero word past the array's last row. -/
def wblk (c : Dev nD) (t : Fin cfg0.N) : S2048x256.Idx → Elt F .f32 :=
  win0_1.fill (grid0.coords t) (fun _ => Scalar.ofBits .f32 0#32) (iblk m c 1 t)

/-- The bias row's block at point `t`, filled out with the zero word past the array's last column. -/
def bblk (c : Dev nD) (t : Fin cfg0.N) : S1x2048.Idx → Elt F .f32 :=
  win0_2.fill (grid0.coords t) (fun _ => Scalar.ofBits .f32 0#32) (iblk m c 2 t)

/-- The output tile the body computes from those three blocks: the product of the hidden block with the
    transposed W2 block, plus the bias row on every row. -/
def oblk (c : Dev nD) (t : Fin cfg0.N) : S1024x2048.Idx → Elt F .f32 :=
  k0_pay1 (hblk m c t) (wblk m c t) (bblk m c t)

/-- The proof data of the one pipeline: the arrays as the region finds them; after the body the three input
    buffers at their blocks and the output's at the computed tile; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => wblk m c t
    | ⟨2, _⟩ => bblk m c t
    | ⟨3, _⟩ => oblk m c t
  Φ _ := Pipeline.ΦA spec0 c
  q _ := fullShare
  owed _ := 0

theorem dats_A (c : Dev nD) (w : Fin cfg0.W) : (dats m 0 c).A w = V m c (Pipeline.arrRef spec0 w) := rfl
theorem dats_after0 (c : Dev nD) (t : Fin cfg0.N) : (dats m 0 c).after 0 t = hblk m c t := rfl
theorem dats_after1 (c : Dev nD) (t : Fin cfg0.N) : (dats m 0 c).after 1 t = wblk m c t := rfl
theorem dats_after2 (c : Dev nD) (t : Fin cfg0.N) : (dats m 0 c).after 2 t = bblk m c t := rfl
theorem dats_after3 (c : Dev nD) (t : Fin cfg0.N) : (dats m 0 c).after 3 t = oblk m c t := rfl

end Cert.KernelIdeal.Hand

end
-- ==== Proof.FrameI.lean ====
/-
  The kernel body on its staging buffers at any instance, and the frame: the program ends, faults nowhere and
  leaves its arguments as launched.

  The body loads the whole of the three input buffers, computes the tile and stores it whole into the output's
  buffer. W2's window, the bias row's and the output's are cut at the arrays' end in the last vocabulary tile, so of
  W2's and the bias row's buffers only the part inside the array is known when the body runs — and at a word-level
  instance the tile's entries inside the array are no function of that part alone. The frame therefore says nothing
  of the output's buffer: its window is forgotten, and the input arrays are read back at the end as they were found.
-/
import proofs.«426636_j893353198128_3_alg».proof.Proof.DataI
import Idealize.ShloMosaic.Lib.Pipeline.Kit
import Idealize.ShloMosaic.Lib.Pipeline.Frame
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-! ## The kernel body on its staging buffers -/

set_option maxHeartbeats 4000000 in
/-- The kernel body on staging buffers `s0` … `s3` of the four windows: three whole loads, the tile computed from
    them, a dead load of the output's buffer and the whole store. The output's buffer ends holding the tile computed
    from what the three input buffers hold, whatever it held; those are unchanged. -/
theorem sound_body (c : Dev nD) (E : Set ℕ) (i : grid0.Coords) (s0 s1 s2 s3 : Fin 2)
    (X0 : S1024x256.Idx → Elt F .bf16) (X1 : S2048x256.Idx → Elt F .f32) (X2 : S1x2048.Idx → Elt F .f32)
    (X3 : S1024x2048.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__kernel_b i (stage0_0 s0) (hstage0_0 s0) (stage0_1 s1) (hstage0_1 s1) (stage0_2 s2) (hstage0_2 s2)
            (stage0_3 s3) (hstage0_3 s3)) K := by
  -- every access is at offsets zero and the buffer's own extents: a load reads the contents, the unmasked store
  -- writes the payload, at whichever of its window's two buffers each memref is
  have hz : (![0, 0] : Fin 2 → Nat) = fun _ => 0 := funext fun a => by fin_cases a <;> rfl
  have r00 : (Memref.whole cc0_stg0_0 : Memref sig .tc _ _ _).view.readAt (Elt F) (Rect.unit (s := S1024x256) ![0, 0] S1024x256.size
      inb_S1024x256_S1024x256_0_0).toLoadRect = id := funext (Memref.readAt_unit_zero (Elt F) cc0_stg0_0 hz _)
  have r01 : (Memref.whole cc0_stg0_1 : Memref sig .tc _ _ _).view.readAt (Elt F) (Rect.unit (s := S1024x256) ![0, 0] S1024x256.size
      inb_S1024x256_S1024x256_0_0).toLoadRect = id := funext (Memref.readAt_unit_zero (Elt F) cc0_stg0_1 hz _)
  have r10 : (Memref.whole cc0_stg1_0 : Memref sig .tc _ _ _).view.readAt (Elt F) (Rect.unit (s := S2048x256) ![0, 0] S2048x256.size
      inb_S2048x256_S2048x256_0_0).toLoadRect = id := funext (Memref.readAt_unit_zero (Elt F) cc0_stg1_0 hz _)
  have r11 : (Memref.whole cc0_stg1_1 : Memref sig .tc _ _ _).view.readAt (Elt F) (Rect.unit (s := S2048x256) ![0, 0] S2048x256.size
      inb_S2048x256_S2048x256_0_0).toLoadRect = id := funext (Memref.readAt_unit_zero (Elt F) cc0_stg1_1 hz _)
  have r20 : (Memref.whole cc0_stg2_0 : Memref sig .tc _ _ _).view.readAt (Elt F) (Rect.unit (s := S1x2048) ![0, 0] S1x2048.size
      inb_S1x2048_S1x2048_0_0).toLoadRect = id := funext (Memref.readAt_unit_zero (Elt F) cc0_stg2_0 hz _)
  have r21 : (Memref.whole cc0_stg2_1 : Memref sig .tc _ _ _).view.readAt (Elt F) (Rect.unit (s := S1x2048) ![0, 0] S1x2048.size
      inb_S1x2048_S1x2048_0_0).toLoadRect = id := funext (Memref.readAt_unit_zero (Elt F) cc0_stg2_1 hz _)
  have w30 : ∀ f w, (((Memref.whole cc0_stg3_0).access (Rect.unit (s := S1024x2048) ![0, 0] S1024x2048.size inb_S1024x2048_S1024x2048_0_0)) :
      View sig .tc _ _ _).write (Elt F) f w Finset.univ = w := Memref.write_access_unit_zero_univ (Elt F) cc0_stg3_0 hz _
  have w31 : ∀ f w, (((Memref.whole cc0_stg3_1).access (Rect.unit (s := S1024x2048) ![0, 0] S1024x2048.size inb_S1024x2048_S1024x2048_0_0)) :
      View sig .tc _ _ _).write (Elt F) f w Finset.univ = w := Memref.write_access_unit_zero_univ (Elt F) cc0_stg3_1 hz _
  fin_cases s0 <;> fin_cases s1 <;> fin_cases s2 <;> fin_cases s3 <;>
  · simp only [owns_whole_eq, cc0__kernel_b_eq_skeleton]; unfold cc0__kernel_b_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    first | rw [r00] | rw [r01]
    first | rw [r10] | rw [r11]
    first | rw [r20] | rw [r21]
    first | rw [w30] | rw [w31]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3

/-! ## What the clipped input windows hold when the body runs -/

variable (m : (ℓ : Loc nD τ sig) → Buf (Elt F) ℓ)

/-- The point before `t` (point 0 for point 0). -/
abbrev prev (t : Fin cfg0.N) : Fin cfg0.N := ⟨t.val - 1, Nat.lt_of_le_of_lt (Nat.sub_le _ _) t.isLt⟩

/-- An input window whose body leaves its block in place, and whose block index and clip extents do not move between
    a point that does not fetch it and the point before: on the part its transfers move, its current buffer holds
    its block at every point. At a point that fetches, the fetch has just put the block there. At one that does not,
    the buffer is as the point before left it, holding that point's block on the same part; the entry of the array
    under a moved entry of the buffer is block index times block size plus the entry's coordinate, the same at
    both points. -/
theorem cut_before (c : Dev nD) (w : Fin cfg0.W) (hw : (cfg0.win w).isOut = false)
    (hafter : ∀ t, (cfg0.win w).cut (grid0.coords t) ((dats m 0 c).after w t) = iblk m c w t)
    (hsame : ∀ t : Fin cfg0.N, (cfg0.win w).fetch t = false → ∀ a,
      (cfg0.win w).index (prev t) a = (cfg0.win w).index t a
        ∧ (cfg0.win w).xsize (grid0.coords (prev t)) a = (cfg0.win w).xsize (grid0.coords t) a)
    (t : Fin cfg0.N) (d) :
    (cfg0.win w).cut (grid0.coords t) ((dats m 0 c).before w t d) = iblk m c w t := by
  by_cases hf : (cfg0.win w).fetch t = true
  · rw [(dats m 0 c).before_fetched w t hf]
    exact (cfg0.win w).cut_fill _ _ _
  · have hf' : (cfg0.win w).fetch t = false := by simpa using hf
    rw [(dats m 0 c).before_unfetched_in w hw t hf' (fun _ => rfl)]
    funext j
    show (cfg0.win w).fill (grid0.coords (prev t)) d ((cfg0.win w).cut (grid0.coords (prev t)) ((dats m 0 c).after w (prev t)))
        ((cfg0.win w).xinj (grid0.coords t) j) = iblk m c w t j
    rw [hafter]
    have hm : (cfg0.win w).moved (grid0.coords (prev t)) ((cfg0.win w).xinj (grid0.coords t) j) = true :=
      ((cfg0.win w).moved_iff _ _).mpr fun a => by rw [(hsame t hf' a).2]; exact (j a).isLt
    unfold Window.fill; rw [dif_pos hm]
    unfold iblk
    rw [View.read_apply, View.read_apply]
    have key : ((cfg0.win w).blk (prev t)).view.emb (fun a => ⟨((cfg0.win w).xinj (grid0.coords t) j a).val,
          ((cfg0.win w).moved_iff _ _).mp hm a⟩) = ((cfg0.win w).blk t).view.emb j := by
      show (cfg0.win w).arr.view.emb (((cfg0.win w).rect (prev t)).emb _) = (cfg0.win w).arr.view.emb (((cfg0.win w).rect t).emb j)
      congr 1
      funext a; apply Fin.ext
      rw [Rect.emb_apply, Rect.emb_apply]
      show (cfg0.win w).index (prev t) a * (cfg0.win w).size a + 1 * (j a).val
          = (cfg0.win w).index t a * (cfg0.win w).size a + 1 * (j a).val
      rw [(hsame t hf' a).1]
    rw [key]

/-- W2's window and the bias row's read the vocabulary tile alone, which moves every second point: at the points
    that do not fetch them, block index and clip extents are the point before's. -/
theorem same1 : ∀ t : Fin cfg0.N, (cfg0.win 1).fetch t = false → ∀ a,
      (cfg0.win 1).index (prev t) a = (cfg0.win 1).index t a
        ∧ (cfg0.win 1).xsize (grid0.coords (prev t)) a = (cfg0.win 1).xsize (grid0.coords t) a :=
  (by decide +kernel : ∀ t : Fin grid0.N, win0_1.fetch t = false → ∀ a : Fin 2,
      win0_1.index (prev t) a = win0_1.index t a
        ∧ win0_1.xsize (grid0.coords (prev t)) a = win0_1.xsize (grid0.coords t) a)
theorem same2 : ∀ t : Fin cfg0.N, (cfg0.win 2).fetch t = false → ∀ a,
      (cfg0.win 2).index (prev t) a = (cfg0.win 2).index t a
        ∧ (cfg0.win 2).xsize (grid0.coords (prev t)) a = (cfg0.win 2).xsize (grid0.coords t) a :=
  (by decide +kernel : ∀ t : Fin grid0.N, win0_2.fetch t = false → ∀ a : Fin 2,
      win0_2.index (prev t) a = win0_2.index t a
        ∧ win0_2.xsize (grid0.coords (prev t)) a = win0_2.xsize (grid0.coords t) a)

/-- On the rows inside the array, W2's buffer holds W2's block when the body runs, -/
theorem cut_before1 (c : Dev nD) (t : Fin cfg0.N) (d) :
    win0_1.cut (grid0.coords t) ((dats m 0 c).before 1 t d) = win0_1.cut (grid0.coords t) (wblk m c t) :=
  (cut_before m c 1 rfl (fun t => win0_1.cut_fill _ _ _) same1 t d).trans (win0_1.cut_fill _ _ _).symm
/-- and on the columns inside the array the bias row's buffer holds the bias block. -/
theorem cut_before2 (c : Dev nD) (t : Fin cfg0.N) (d) :
    win0_2.cut (grid0.coords t) ((dats m 0 c).before 2 t d) = win0_2.cut (grid0.coords t) (bblk m c t) :=
  (cut_before m c 2 rfl (fun t => win0_2.cut_fill _ _ _) same2 t d).trans (win0_2.cut_fill _ _ _).symm

/-! ## The body at a grid point -/

/-- The body at point `t` on the current staging buffers, each input's holding what the pipeline left there and
    the output's anything: the hidden layer's buffer is left holding its block (it held it: the window is uncut and
    fetched at every point); W2's and the bias row's are left as found, which on the part inside the array is their
    block; the output's holds the tile computed from what the three held. -/
theorem point_core (c : Dev nD) (t : Fin cfg0.N) (d0 d1 d2) (X3 : S1024x2048.Idx → Elt F .f32) (K : PUnit → sProp 𝕄) :
    iprop((owns (c : Thread nD τ) (st0_0 t) fullShare ((dats m 0 c).before (0 : Fin 4) t d0)
          ∗ owns (c : Thread nD τ) (st0_1 t) fullShare ((dats m 0 c).before (1 : Fin 4) t d1)
          ∗ owns (c : Thread nD τ) (st0_2 t) fullShare ((dats m 0 c).before (2 : Fin 4) t d2)
          ∗ owns (c : Thread nD τ) (st0_3 t) fullShare X3)
        ∗ (iprop(owns (c : Thread nD τ) (st0_0 t) fullShare (hblk m c t)
            ∗ (∃ d, owns (c : Thread nD τ) (st0_1 t) fullShare (win0_1.fill (grid0.coords t) d (win0_1.cut (grid0.coords t) (wblk m c t))))
            ∗ (∃ d, owns (c : Thread nD τ) (st0_2 t) fullShare (win0_2.fill (grid0.coords t) d (win0_2.cut (grid0.coords t) (bblk m c t))))
            ∗ owns (c : Thread nD τ) (st0_3 t) fullShare
                (k0_pay1 ((dats m 0 c).before (0 : Fin 4) t d0) ((dats m 0 c).before (1 : Fin 4) t d1)
                  ((dats m 0 c).before (2 : Fin 4) t d2))) -∗ K ⟨⟩))
      ⊢ wp frame (wpE (defs₀ (F := F)) 𝒱₀ c none) Set.univ (bodyAt0 t) K := by
  iintro ⟨⟨H0, H1, H2, H3⟩, Hk⟩
  iapply (sound_body (F := F) c Set.univ (grid0.coords t) (cfg0.slots t 0) (cfg0.slots t 1) (cfg0.slots t 2) (cfg0.slots t 3)
    ((dats m 0 c).before (0 : Fin 4) t d0) ((dats m 0 c).before (1 : Fin 4) t d1) ((dats m 0 c).before (2 : Fin 4) t d2) X3 K)
  isplitl [H0 H1 H2 H3]
  · isplitl [H0]
    · iexact H0
    isplitl [H1]
    · iexact H1
    isplitl [H2]
    · iexact H2
    · iexact H3
  iintro ⟨H0, H1, H2, H3⟩
  iapply Hk
  isplitl [H0]
  · rw [before0_0_of m (dats m 0 c) rfl (fun _ => rfl) t d0]; iexact H0
  isplitl [H1]
  · iexists (dats m 0 c).before (1 : Fin 4) t d1
    rw [win0_1.fill_congr_cut (grid0.coords t) (cut_before1 m c t d1)]; iexact H1
  isplitl [H2]
  · iexists (dats m 0 c).before (2 : Fin 4) t d2
    rw [win0_2.fill_congr_cut (grid0.coords t) (cut_before2 m c t d2)]; iexact H2
  · iexact H3

/-! ## The frame -/

/-- The output's window is forgotten: the frame says nothing of what the kernel leaves in it. -/
def forgets : Fin 4 → Bool := fun w => w.val == 3

/-- The body obligation with the output's window forgotten: its buffer is handed over and back at some contents. -/
theorem body_any (c : Dev nD) : BodyObligationLoose (dats m 0 c) (defs₀ (F := F)) 𝒱₀ () Set.univ forgets := fun t => by
  rw [bigSep_W0, bigSep_W0]
  show iprop(Pipeline.ΦA spec0 c ∗ (dats m 0 c).owesAt () t.castSucc
        ∗ (∃ d, owns (c : Thread nD τ) (st0_0 t) fullShare ((dats m 0 c).before (0 : Fin 4) t d))
        ∗ (∃ d, owns (c : Thread nD τ) (st0_1 t) fullShare ((dats m 0 c).before (1 : Fin 4) t d))
        ∗ (∃ d, owns (c : Thread nD τ) (st0_2 t) fullShare ((dats m 0 c).before (2 : Fin 4) t d))
        ∗ (∃ X, owns (c : Thread nD τ) (st0_3 t) fullShare X))
      ⊢ wp frame (wpE (defs₀ (F := F)) 𝒱₀ c none) Set.univ (bodyAt0 t) fun _ =>
          iprop(Pipeline.ΦA spec0 c ∗ (dats m 0 c).owesAt () t.castSucc
            ∗ owns (c : Thread nD τ) (st0_0 t) fullShare (hblk m c t)
            ∗ (∃ d, owns (c : Thread nD τ) (st0_1 t) fullShare (win0_1.fill (grid0.coords t) d (win0_1.cut (grid0.coords t) (wblk m c t))))
            ∗ (∃ d, owns (c : Thread nD τ) (st0_2 t) fullShare (win0_2.fill (grid0.coords t) d (win0_2.cut (grid0.coords t) (bblk m c t))))
            ∗ (∃ X, owns (c : Thread nD τ) (st0_3 t) fullShare X))
  iintro ⟨HΦ, Ho, ⟨%d0, H0⟩, ⟨%d1, H1⟩, ⟨%d2, H2⟩, ⟨%X3, H3⟩⟩
  iapply (point_core m c t d0 d1 d2 X3 _)
  isplitl [H0 H1 H2 H3]
  · isplitl [H0]
    · iexact H0
    isplitl [H1]
    · iexact H1
    isplitl [H2]
    · iexact H2
    · iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  · iexists _; iexact H3

/-- The run with the output's window forgotten: every input array ends as the region found it, every buffer the
    pipeline does not stage likewise. -/
theorem run_any (m : (ℓ : Loc nD τ sig) → Buf (Elt F) ℓ) (ρ : Dev nD → PrngReg) :
    θ_run defs (onTc (τ := τ) (main (F := F))) (s₀ m ρ)
      (Pipeline.RDat.FramePost (cfgs 0) (fun c => (dats m 0 c).toRForget forgets) (V m)) :=
  Pipeline.RDat.θ_run_frame cfgs (0 : Fin 1) launch0 defs₀ 𝒱₀ (fun c => (dats m 0 c).toRForget forgets) m ρ main
    (hbody := fun c => (body_any m c).toRForget)
    (hshare := fun c => ((dats m 0 c).toRForget forgets).share_full fun _ => rfl) (howed := fun _ _ => rfl)
    (V := V m) (hmain := hmain m 𝒱₀) (hA := fun _ _ => rfl) (hΦ := fun _ _ => rfl)

/-- THE FRAME at any instance: the program runs to the end, faults nowhere and leaves its five arguments as
    launched (the output tile's contents are not named here). W2 is the array of the pipeline's window 1, an input:
    it ends as the region found it; the other four arguments are staged by no window; and no host operation before
    the region writes any of the five. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c (1 : Fin 4) rfl).trans (V_main_arg3 m c),
      ((h c).2 main_arg4 (Pipeline.mem_restRefs_of main_arg4 (by decide) (by decide))).trans (V_main_arg4 m c)⟩)
    (run_any m ρ)

end Cert.KernelIdeal.Hand

end
-- ==== Proof.PayI.lean ====
/-
  The body's arithmetic at one entry, over the extended reals: entry (p, q) of the tile is the sum over the 256
  hidden units of the hidden block's row p times the W2 block's row q, plus the bias block's entry q.
-/
import proofs.«426636_j893353198128_3_alg».proof.Proof.DataI
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx

/-- The dot's left operand index keeps the output's row: axis 0 of the hidden block is the output's axis 0. -/
theorem lhs_pay_0 (i : S1024x2048.Idx) (r : dot_S1024x256_S2048x256_S1024x2048_1_1_0_0_n_n.contr.Idx) :
    (dot_S1024x256_S2048x256_S1024x2048_1_1_0_0_n_n.lhsIdx i r 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl

/-- Axis 1 of the hidden block is the contracted one: it carries the summation index. -/
theorem lhs_pay_1 (i : S1024x2048.Idx) (r : dot_S1024x256_S2048x256_S1024x2048_1_1_0_0_n_n.contr.Idx) :
    (dot_S1024x256_S2048x256_S1024x2048_1_1_0_0_n_n.lhsIdx i r 1).val = (r ⟨0, by decide⟩).val :=
  dot_S1024x256_S2048x256_S1024x2048_1_1_0_0_n_n.lhsIdx_val_of_single rfl i r

/-- Axis 0 of the W2 block is the output's column: the right operand is read transposed. -/
theorem rhs_pay_0 (i : S1024x2048.Idx) (r : dot_S1024x256_S2048x256_S1024x2048_1_1_0_0_n_n.contr.Idx) :
    (dot_S1024x256_S2048x256_S1024x2048_1_1_0_0_n_n.rhsIdx i r 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl

/-- Axis 1 of the W2 block is the contracted one as well. -/
theorem rhs_pay_1 (i : S1024x2048.Idx) (r : dot_S1024x256_S2048x256_S1024x2048_1_1_0_0_n_n.contr.Idx) :
    (dot_S1024x256_S2048x256_S1024x2048_1_1_0_0_n_n.rhsIdx i r 1).val = (r ⟨0, by decide⟩).val :=
  dot_S1024x256_S2048x256_S1024x2048_1_1_0_0_n_n.rhsIdx_val_of_single rfl i r

/-- The tile's entry (p, q): row p of the hidden block against row q of the W2 block, plus the bias at q. The
    change of float format on the way is the identity on the extended reals, and the accumulator starts at the
    zero word. -/
theorem pay_apply (X0 : S1024x256.Idx → EReal) (X1 : S2048x256.Idx → EReal) (X2 : S1x2048.Idx → EReal)
    (p : Fin 1024) (q : Fin 2048) :
    k0_pay1 (F := Ideal) X0 X1 X2 (ix2 p q)
      = (Ideal.ofBits .f32 0x00000000#32 + ∑ k : Fin 256, X0 (ix2 p k) * X1 (ix2 q k)) + X2 (ix2 0 q) := by
  unfold k0_pay1
  rw [addf_apply, shapeCast_self, shapeCast_self]
  -- the bias row is repeated down the rows: entry (p, q) of the broadcast is entry (0, q) of the row
  rw [broadcastTo_apply X2 broadcasts_S1x2048_S1024x2048 (ix2 p q) (ix2 0 q) (fun a => by
    match a with
    | ⟨0, _⟩ => rfl
    | ⟨1, _⟩ => rfl)]
  congr 1
  -- the product: accumulator plus the sum over the contraction index, re-indexed by the hidden unit k
  simp only [matmul]
  rw [Ideal.matmul_apply, constant_apply,
    ← Equiv.sum_comp (contrEquiv1 dot_S1024x256_S2048x256_S1024x2048_1_1_0_0_n_n 256 rfl rfl).symm]
  congr 1
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q) ((contrEquiv1 dot_S1024x256_S2048x256_S1024x2048_1_1_0_0_n_n 256 rfl rfl).symm k) = ix2 p k := funext fun a => Fin.ext (by
    match a with
    | ⟨0, _⟩ => exact lhs_pay_0 _ _
    | ⟨1, _⟩ => exact (lhs_pay_1 _ _).trans hk)
  have er : dot_S1024x256_S2048x256_S1024x2048_1_1_0_0_n_n.rhsIdx (ix2 p q) ((contrEquiv1 dot_S1024x256_S2048x256_S1024x2048_1_1_0_0_n_n 256 rfl rfl).symm k) = ix2 q k := funext fun a => Fin.ext (by
    match a with
    | ⟨0, _⟩ => exact rhs_pay_0 _ _
    | ⟨1, _⟩ => exact (rhs_pay_1 _ _).trans hk)
  rw [el, er, truncf_apply]

end Cert.KernelIdeal.Hand

end
-- ==== Proof.BodyI.lean ====
/-
  The body obligation over the extended reals with the output tile named, and the run of the whole program.

  Over the extended reals entry (p, q) of the tile is a sum over row p of the hidden block and row q of the W2 block,
  plus entry q of the bias block. A column q of the tile inside the output is a row of W2's block inside W2 and a
  column of the bias block inside the bias row, where the buffers hold the blocks; so on the part inside the output
  the tile the body stores is the tile of the proof data, whatever the buffers hold past the arrays' end.
-/
import proofs.«426636_j893353198128_3_alg».proof.Proof.DataI
import proofs.«426636_j893353198128_3_alg».proof.Proof.PayI
import proofs.«426636_j893353198128_3_alg».proof.Proof.FrameI
import Idealize.ShloMosaic.Lib.Pipeline.Kit
import Idealize.ShloMosaic.Lib.Pipeline.Frame
import Idealize.ShloMosaic.Lib.Pipeline.FrameBody
import Idealize.ShloMosaic.Lib.Tactic
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The output tile on the part inside the array -/

/-- Contents of a window's buffer that agree on the part the transfers at `i` move agree at every entry of it. -/
theorem eq_of_cut_eq {G : Pipeline.Grid} (w : Window sig G) {α : Type} (i : G.Coords) {X Y : w.block.Idx → α}
    (h : w.cut i X = w.cut i Y) (j : w.block.Idx) (hj : ∀ a, (j a).val < w.xsize i a) : X j = Y j :=
  congrFun h (fun a => ⟨(j a).val, hj a⟩)

/-- The three clipped windows are cut alike: at every point as many rows of W2's block lie inside W2 as columns of
    the bias block inside the bias row and columns of the output tile inside the output; every other axis is whole. -/
theorem xsizes : ∀ t : Fin cfg0.N,
    win0_1.xsize (grid0.coords t) 0 = win0_3.xsize (grid0.coords t) 1 ∧ win0_1.xsize (grid0.coords t) 1 = 256
      ∧ win0_2.xsize (grid0.coords t) 0 = 1 ∧ win0_2.xsize (grid0.coords t) 1 = win0_3.xsize (grid0.coords t) 1 := by
  decide +kernel

/-- Entry (p, q) of the tile reads row q of the W2 block and entry q of the bias block, and nothing else of them. -/
theorem pay_congr (X0 : S1024x256.Idx → EReal) (X1 Y1 : S2048x256.Idx → EReal) (X2 Y2 : S1x2048.Idx → EReal)
    (p : Fin 1024) (q : Fin 2048) (h1 : ∀ k : Fin 256, X1 (ix2 q k) = Y1 (ix2 q k)) (h2 : X2 (ix2 0 q) = Y2 (ix2 0 q)) :
    k0_pay1 (F := Ideal) X0 X1 X2 (ix2 p q) = k0_pay1 (F := Ideal) X0 Y1 Y2 (ix2 p q) := by
  rw [pay_apply, pay_apply, h2]
  congr 2
  exact Finset.sum_congr rfl fun k _ => by rw [h1]

variable (m : (ℓ : Loc nD τ sig) → Buf (Elt Ideal) ℓ)

/-- The tile computed from buffers that hold the hidden block, and W2's block and the bias block on the parts inside
    their arrays, is the proof data's tile on the part inside the output: a column of the tile inside the output is a
    row of W2's block inside W2 and a column of the bias block inside the bias row. -/
theorem cut_pay (c : Dev nD) (t : Fin cfg0.N) (X0 : S1024x256.Idx → EReal) (X1 : S2048x256.Idx → EReal)
    (X2 : S1x2048.Idx → EReal) (h0 : X0 = hblk m c t)
    (h1 : win0_1.cut (grid0.coords t) X1 = win0_1.cut (grid0.coords t) (wblk m c t))
    (h2 : win0_2.cut (grid0.coords t) X2 = win0_2.cut (grid0.coords t) (bblk m c t)) :
    win0_3.cut (grid0.coords t) (k0_pay1 (F := Ideal) X0 X1 X2) = win0_3.cut (grid0.coords t) (oblk m c t) := by
  subst h0
  obtain ⟨e10, e11, e20, e21⟩ := xsizes t
  funext j
  have hq : ((win0_3.xinj (grid0.coords t) j) 1).val < win0_3.xsize (grid0.coords t) 1 := (j 1).isLt
  show k0_pay1 (F := Ideal) (hblk m c t) X1 X2 (win0_3.xinj (grid0.coords t) j)
    = k0_pay1 (F := Ideal) (hblk m c t) (wblk m c t) (bblk m c t) (win0_3.xinj (grid0.coords t) j)
  rw [eq_ix2 (win0_3.xinj (grid0.coords t) j)]
  refine pay_congr _ _ _ _ _ _ _ (fun k => ?_) ?_
  · refine eq_of_cut_eq win0_1 (grid0.coords t) h1 _ fun a => ?_
    match a with
    | ⟨0, _⟩ => show _ < win0_1.xsize (grid0.coords t) 0; rw [e10]; exact hq
    | ⟨1, _⟩ => show k.val < win0_1.xsize (grid0.coords t) 1; rw [e11]; exact k.isLt
  · refine eq_of_cut_eq win0_2 (grid0.coords t) h2 _ fun a => ?_
    match a with
    | ⟨0, _⟩ => show 0 < win0_2.xsize (grid0.coords t) 0; rw [e20]; exact Nat.one_pos
    | ⟨1, _⟩ => show _ < win0_2.xsize (grid0.coords t) 1; rw [e21]; exact hq

/-! ## The body obligation and the run -/

/-- The body obligation with every window named: the output's buffer is left holding the tile computed from what
    the input buffers held, which on the part inside the output is the proof data's tile. -/
theorem body_obligation (c : Dev nD) : BodyObligationLoose (dats m 0 c) (defs₀ (F := Ideal)) 𝒱₀ () Set.univ := fun t => by
  rw [bigSep_W0, bigSep_W0]
  show iprop(Pipeline.ΦA spec0 c ∗ (dats m 0 c).owesAt () t.castSucc
        ∗ (∃ d, owns (c : Thread nD τ) (st0_0 t) fullShare ((dats m 0 c).before (0 : Fin 4) t d))
        ∗ (∃ d, owns (c : Thread nD τ) (st0_1 t) fullShare ((dats m 0 c).before (1 : Fin 4) t d))
        ∗ (∃ d, owns (c : Thread nD τ) (st0_2 t) fullShare ((dats m 0 c).before (2 : Fin 4) t d))
        ∗ (∃ d, owns (c : Thread nD τ) (st0_3 t) fullShare ((dats m 0 c).before (3 : Fin 4) t d)))
      ⊢ wp frame (wpE (defs₀ (F := Ideal)) 𝒱₀ c none) Set.univ (bodyAt0 t) fun _ =>
          iprop(Pipeline.ΦA spec0 c ∗ (dats m 0 c).owesAt () t.castSucc
            ∗ owns (c : Thread nD τ) (st0_0 t) fullShare (hblk m c t)
            ∗ (∃ d, owns (c : Thread nD τ) (st0_1 t) fullShare (win0_1.fill (grid0.coords t) d (win0_1.cut (grid0.coords t) (wblk m c t))))
            ∗ (∃ d, owns (c : Thread nD τ) (st0_2 t) fullShare (win0_2.fill (grid0.coords t) d (win0_2.cut (grid0.coords t) (bblk m c t))))
            ∗ (∃ d, owns (c : Thread nD τ) (st0_3 t) fullShare (win0_3.fill (grid0.coords t) d (win0_3.cut (grid0.coords t) (oblk m c t)))))
  iintro ⟨HΦ, Ho, ⟨%d0, H0⟩, ⟨%d1, H1⟩, ⟨%d2, H2⟩, ⟨%d3, H3⟩⟩
  iapply (point_core m c t d0 d1 d2 ((dats m 0 c).before (3 : Fin 4) t d3) _)
  isplitl [H0 H1 H2 H3]
  · isplitl [H0]
    · iexact H0
    isplitl [H1]
    · iexact H1
    isplitl [H2]
    · iexact H2
    · iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  · iexists k0_pay1 (F := Ideal) ((dats m 0 c).before (0 : Fin 4) t d0) ((dats m 0 c).before (1 : Fin 4) t d1)
      ((dats m 0 c).before (2 : Fin 4) t d2)
    rw [win0_3.fill_congr_cut (grid0.coords t) (cut_pay m c t _ _ _ (before0_0_of m (dats m 0 c) rfl (fun _ => rfl) t d0)
      (cut_before1 m c t d1) (cut_before2 m c t d2))]
    iexact H3

/-- THE RUN over the extended reals, with the output named: every array the pipeline stages ends at what the
    proof data computes for it, every other buffer as the region found it. -/
theorem run_main (m : (ℓ : Loc nD τ sig) → Buf (Elt Ideal) ℓ) (ρ : Dev nD → PrngReg) :
    θ_run defs (onTc (τ := τ) (main (F := Ideal))) (s₀ m ρ) (Pipeline.FramePost cfgs (dats m) 0 (V m)) :=
  Pipeline.θ_run_frame cfgs (dats m) 0 launch0 defs₀ 𝒱₀ m ρ main
    (hbody := body_obligation m)
    (hshare := fun c => (dats m 0 c).share_full fun _ => rfl) (howed := fun _ _ => rfl)
    (V := V m) (hmain := hmain m 𝒱₀) (hA := fun _ _ => rfl) (hΦ := fun _ _ => rfl)

end Cert.KernelIdeal.Hand

end
-- ==== Proof.HostI.lean ====
/-
  The host operations before the kernel launch, read at an index: the array the kernel's first window stages is
  the hidden layer, and its third the bias as a one-row matrix.
-/
import proofs.«426636_j893353198128_3_alg».proof.Proof.Gen.KernelIdeal.Frame
import proofs.«426636_j893353198128_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KernelIdeal.Hand

open Cert.KernelIdeal Cert.KernelIdeal.Gen Cert.Cbow
open Idealize.ShloMosaic Idealize.ShloMosaic.TcCoe Idealize.SL.Sem Idealize.ShloMosaic.ValueIdx

variable (m : (ℓ : Loc nD τ sig) → Buf (Elt Ideal) ℓ)

namespace HostChain

/-! ## The host chain, stage by stage

Each stage is the term the program's operations build, as a function of the token array x, the table W1
and the bias b1. -/

/-- The strict lower triangle of an 8 × 8 square: entry (j, k) compares the column number k (an iota laid
    along the second axis) with the row number j (an iota laid along the first). -/
def below : IVec S8x8 1 :=
  cmpi .slt
    (broadcastInDim S8x8 ![0, 1] bcast_S1x8_S8x8_0_1 (broadcastInDim S1x8 ![1] bcast_S8_S1x8_1 (iotaInDim S8 32 0)))
    (broadcastInDim S8x8 ![0, 1] bcast_S8x1_S8x8_0_1 (broadcastInDim S8x1 ![0] bcast_S8_S8x1_0 (iotaInDim S8 32 0)))

/-- Entry (n, j, k): the tokens at positions j and k of row n are the same word. -/
def sameTok (x : IVec S2048x8 32) : IVec S2048x8x8 1 :=
  cmpi .eq
    (broadcastInDim S2048x8x8 ![0, 1, 2] bcast_S2048x8x1_S2048x8x8_0_1_2
      (broadcastInDim S2048x8x1 ![0, 1] bcast_S2048x8_S2048x8x1_0_1 x))
    (broadcastInDim S2048x8x8 ![0, 1, 2] bcast_S2048x1x8_S2048x8x8_0_1_2
      (broadcastInDim S2048x1x8 ![0, 2] bcast_S2048x8_S2048x1x8_0_2 x))

/-- Entry (n, j): some earlier position k < j of row n holds the token of position j (the OR over k). -/
def seenBefore (x : IVec S2048x8 32) : IVec S2048x8 1 :=
  Host.reduce IntOp.ori
    (andi (sameTok x)
      (broadcastInDim S2048x8x8 ![0, 1, 2] bcast_S1x8x8_S2048x8x8_0_1_2
        (broadcastInDim S1x8x8 ![1, 2] bcast_S8x8_S1x8x8_1_2 below)))
    (constantI S_ 1 0#1) reducesTo_S2048x8x8_S2048x8_d2 h_S_

/-- Entry (n, j): the word of 1/8 where the token is new in its row, the word of 0 where it is a repeat. -/
def weight (x : IVec S2048x8 32) : FVec Ideal S2048x8 .f32 :=
  select (noti (seenBefore x))
    (broadcastInDim S2048x8 ![] bcast_S_S2048x8 (constant (F := Ideal) S_ .f32 0x3E000000#32))
    (broadcastInDim S2048x8 ![] bcast_S_S2048x8 (constant (F := Ideal) S_ .f32 0x00000000#32))

/-- Entry (n, j, 0): the column of W1 the lookup asks for — the token, with 50000 added when it is negative. -/
def column (x : IVec S2048x8 32) : IVec S2048x8x1 32 :=
  broadcastInDim S2048x8x1 ![0, 1] bcast_S2048x8_S2048x8x1_0_1
    (select (cmpi .slt x (broadcastInDim S2048x8 ![] bcast_S_S2048x8 (constantI S_ 32 0#32)))
      (addi x (broadcastInDim S2048x8 ![] bcast_S_S2048x8 (constantI S_ 32 50000#32))) x)

/-- Entry (n, j): the column asked for lies in the table, 0 ≤ column ≤ 49999 (an AND over a unit axis). -/
def inTable (x : IVec S2048x8 32) : IVec S2048x8 1 :=
  Host.reduce IntOp.andi
    (andi
      (cmpi .sge (column x) (broadcastInDim S2048x8x1 ![] bcast_S_S2048x8x1 (constantI S_ 32 0#32)))
      (cmpi .sle (column x)
        (broadcastInDim S2048x8x1 ![0, 1, 2] bcast_S1x1x1_S2048x8x1_0_1_2
          (broadcastInDim S1x1x1 ![2] bcast_S1_S1x1x1_2 (constantI S1 32 49999#32)))))
    (constantI S_ 1 1#1) reducesTo_S2048x8x1_S2048x8_d2 h_S_

/-- Entry (d, n, j): W1 at row d and the column asked for, or the not-a-number word where that column is
    outside the table. -/
def taken (x : IVec S2048x8 32) (W1 : FVec Ideal S256x50000 .f32) : FVec Ideal S256x2048x8 .f32 :=
  select (broadcastInDim S256x2048x8 ![1, 2] bcast_S2048x8_S256x2048x8_1_2 (inTable x))
    (Host.gather gather_S256x50000_S2048x8x1_S256x2048x8_0_1_n_n_1_2_2561 W1 (column x))
    (broadcastInDim S256x2048x8 ![] bcast_S_S256x2048x8 (constant (F := Ideal) S_ .f32 0x7FC00000#32))

/-- Entry (n, j, d): the weight of position j times the looked-up entry of W1. -/
def products (x : IVec S2048x8 32) (W1 : FVec Ideal S256x50000 .f32) : FVec Ideal S2048x8x256 .f32 :=
  mulf
    (broadcastInDim S2048x8x256 ![0, 1, 2] bcast_S2048x8x1_S2048x8x256_0_1_2
      (broadcastInDim S2048x8x1 ![0, 1] bcast_S2048x8_S2048x8x1_0_1 (weight x)))
    (transpose S2048x8x256 [1, 2, 0] (taken x W1) transposes_S256x2048x8_S2048x8x256_1_2_0)

/-- Entry (n, d): the sum of the products over the eight positions, plus the bias, cut off below at 0; the
    last change of float format is the identity on extended reals. -/
def hostHid (x : IVec S2048x8 32) (W1 : FVec Ideal S256x50000 .f32) (b1 : FVec Ideal S256 .f32) :
    FVec Ideal S2048x256 .bf16 :=
  truncf .bf16
    (maximumf
      (addf
        (Host.reduceAdd (products x W1) (constant (F := Ideal) S_ .f32 0x00000000#32)
          reducesTo_S2048x8x256_S2048x256_d1 h_S_)
        (broadcastInDim S2048x256 ![0, 1] bcast_S1x256_S2048x256_0_1
          (broadcastInDim S1x256 ![1] bcast_S256_S1x256_1 b1)))
      (broadcastInDim S2048x256 ![] bcast_S_S2048x256 (constant (F := Ideal) S_ .f32 0x00000000#32)))
    bitsLt_bf16_f32

/-! ## Small facts about one-bit words and their folds -/

/-- An OR over a finite set of one-bit words, started at 0, is 1 exactly when some member is 1. -/
theorem fold_ori_eq_one {ι : Type} [DecidableEq ι] (S : Finset ι) (g : ι → BitVec 1) :
    S.fold IntOp.ori 0#1 g = 1#1 ↔ ∃ k ∈ S, g k = 1#1 := by
  induction S using Finset.induction_on with
  | empty => simp
  | insert a S ha ih =>
    rw [Finset.fold_insert ha, IntOp.ori_eq_one, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.mp hk with rfl | hk
      · exact Or.inl h
      · exact Or.inr ⟨k, hk, h⟩

/-- An AND over a finite set of one-bit words, started at 1, is 1 exactly when every member is 1. -/
theorem fold_andi_eq_one {ι : Type} [DecidableEq ι] (S : Finset ι) (g : ι → BitVec 1) :
    S.fold IntOp.andi 1#1 g = 1#1 ↔ ∀ k ∈ S, g k = 1#1 := by
  induction S using Finset.induction_on with
  | empty => simp
  | insert a S ha ih =>
    rw [Finset.fold_insert ha, IntOp.andi_eq_one, ih]
    constructor
    · rintro ⟨h, hS⟩ k hk
      rcases Finset.mem_insert.mp hk with rfl | hk
      · exact h
      · exact hS k hk
    · intro h
      exact ⟨h a (Finset.mem_insert_self a S), fun k hk => h k (Finset.mem_insert_of_mem hk)⟩

/-! ## Broadcasts read at an index -/

/-- A scalar spread over the token array's shape reads the scalar everywhere. -/
theorem scalar2_apply {α : Type} (v : S_.Idx → α) (i : S2048x8.Idx) :
    broadcastInDim S2048x8 ![] bcast_S_S2048x8 v i = v ix0 :=
  broadcastInDim_apply _ bcast_S_S2048x8 v i ix0 (fun a => a.elim0)

/-- The token array's shape with a trailing unit axis: entry (n, j, 0) is entry (n, j). -/
theorem unitLast_apply {α : Type} (y : S2048x8.Idx → α) (n : Fin 2048) (j : Fin 8) :
    broadcastInDim S2048x8x1 ![0, 1] bcast_S2048x8_S2048x8x1_0_1 y (ix3 n j 0) = y (ix2 n j) :=
  broadcastInDim_apply _ bcast_S2048x8_S2048x8x1_0_1 y (ix3 n j 0) (ix2 n j)
    (fun a => match a with | ⟨0, _⟩ => rfl | ⟨1, _⟩ => rfl)

/-- A row of eight laid along the second axis of the square: entry (j, k) is entry k. -/
theorem alongSecond_apply (v : IVec S8 32) (j k : Fin 8) :
    broadcastInDim S8x8 ![0, 1] bcast_S1x8_S8x8_0_1 (broadcastInDim S1x8 ![1] bcast_S8_S1x8_1 v) (ix2 j k) = v (ix1 k) := by
  rw [broadcastInDim_apply _ bcast_S1x8_S8x8_0_1 _ (ix2 j k) (ix2 0 k) (fun a => match a with | ⟨0, _⟩ => rfl | ⟨1, _⟩ => rfl),
    broadcastInDim_apply _ bcast_S8_S1x8_1 v (ix2 0 k) (ix1 k) (fun a => match a with | ⟨0, _⟩ => rfl)]

/-- A row of eight laid along the first axis of the square: entry (j, k) is entry j. -/
theorem alongFirst_apply (v : IVec S8 32) (j k : Fin 8) :
    broadcastInDim S8x8 ![0, 1] bcast_S8x1_S8x8_0_1 (broadcastInDim S8x1 ![0] bcast_S8_S8x1_0 v) (ix2 j k) = v (ix1 j) := by
  rw [broadcastInDim_apply _ bcast_S8x1_S8x8_0_1 _ (ix2 j k) (ix2 j 0) (fun a => match a with | ⟨0, _⟩ => rfl | ⟨1, _⟩ => rfl),
    broadcastInDim_apply _ bcast_S8_S8x1_0 v (ix2 j 0) (ix1 j) (fun a => match a with | ⟨0, _⟩ => rfl)]

/-- The square repeated for every row of the token array: entry (n, j, k) is the square's (j, k). -/
theorem square_apply (t : IVec S8x8 1) (n : Fin 2048) (j k : Fin 8) :
    broadcastInDim S2048x8x8 ![0, 1, 2] bcast_S1x8x8_S2048x8x8_0_1_2 (broadcastInDim S1x8x8 ![1, 2] bcast_S8x8_S1x8x8_1_2 t) (ix3 n j k)
      = t (ix2 j k) := by
  rw [broadcastInDim_apply _ bcast_S1x8x8_S2048x8x8_0_1_2 _ (ix3 n j k) (ix3 0 j k)
      (fun a => match a with | ⟨0, _⟩ => rfl | ⟨1, _⟩ => rfl | ⟨2, _⟩ => rfl),
    broadcastInDim_apply _ bcast_S8x8_S1x8x8_1_2 t (ix3 0 j k) (ix2 j k) (fun a => match a with | ⟨0, _⟩ => rfl | ⟨1, _⟩ => rfl)]

/-! ## The first-occurrence test -/

theorem below_apply (j k : Fin 8) :
    below (ix2 j k) = IntOp.cmpi .slt (BitVec.ofNat 32 k.val) (BitVec.ofNat 32 j.val) :=
  congrArg₂ (IntOp.cmpi .slt) (alongSecond_apply (iotaInDim S8 32 0) j k) (alongFirst_apply (iotaInDim S8 32 0) j k)

/-- The triangle's entry (j, k) is set exactly when k < j. -/
theorem below_eq_one (j k : Fin 8) : below (ix2 j k) = 1#1 ↔ k < j := by
  rw [below_apply, StableHlo.Predicate.slt_iff_toNat (by simp only [BitVec.toNat_ofNat]; omega) (by simp only [BitVec.toNat_ofNat]; omega)]
  simp only [BitVec.toNat_ofNat]
  rw [Fin.lt_def]
  omega

theorem sameTok_apply (x : IVec S2048x8 32) (n : Fin 2048) (j k : Fin 8) :
    sameTok x (ix3 n j k) = IntOp.cmpi .eq (x (ix2 n j)) (x (ix2 n k)) := by
  have h1 : broadcastInDim S2048x8x8 ![0, 1, 2] bcast_S2048x8x1_S2048x8x8_0_1_2
      (broadcastInDim S2048x8x1 ![0, 1] bcast_S2048x8_S2048x8x1_0_1 x) (ix3 n j k) = x (ix2 n j) := by
    rw [broadcastInDim_apply _ bcast_S2048x8x1_S2048x8x8_0_1_2 _ (ix3 n j k) (ix3 n j 0)
      (fun a => match a with | ⟨0, _⟩ => rfl | ⟨1, _⟩ => rfl | ⟨2, _⟩ => rfl), unitLast_apply]
  have h2 : broadcastInDim S2048x8x8 ![0, 1, 2] bcast_S2048x1x8_S2048x8x8_0_1_2
      (broadcastInDim S2048x1x8 ![0, 2] bcast_S2048x8_S2048x1x8_0_2 x) (ix3 n j k) = x (ix2 n k) := by
    rw [broadcastInDim_apply _ bcast_S2048x1x8_S2048x8x8_0_1_2 _ (ix3 n j k) (ix3 n 0 k)
      (fun a => match a with | ⟨0, _⟩ => rfl | ⟨1, _⟩ => rfl | ⟨2, _⟩ => rfl),
      broadcastInDim_apply _ bcast_S2048x8_S2048x1x8_0_2 x (ix3 n 0 k) (ix2 n k) (fun a => match a with | ⟨0, _⟩ => rfl | ⟨1, _⟩ => rfl)]
  exact congrArg₂ (IntOp.cmpi .eq) h1 h2

/-- Row n, position j with the coordinate k put back on the reduced last axis. -/
theorem lift_last (h : S2048x8x8.Reduces [2] S2048x8) (n : Fin 2048) (j k : Fin 8) :
    h.lift (ix2 n j) k = ix3 n j k := by
  funext a
  match a with
  | ⟨0, _⟩ => exact Fin.ext rfl
  | ⟨1, _⟩ => exact Fin.ext rfl
  | ⟨2, _⟩ => exact Fin.ext rfl

/-- Under the OR, position k of row n counts exactly when it is earlier than j and holds the same token. -/
theorem earlier_at (x : IVec S2048x8 32) (h : S2048x8x8.Reduces [2] S2048x8) (n : Fin 2048) (j k : Fin 8) :
    andi (sameTok x)
        (broadcastInDim S2048x8x8 ![0, 1, 2] bcast_S1x8x8_S2048x8x8_0_1_2
          (broadcastInDim S1x8x8 ![1, 2] bcast_S8x8_S1x8x8_1_2 below)) (h.lift (ix2 n j) k) = 1#1
      ↔ k < j ∧ x (ix2 n k) = x (ix2 n j) := by
  rw [lift_last]
  show IntOp.andi (sameTok x (ix3 n j k))
    (broadcastInDim S2048x8x8 ![0, 1, 2] bcast_S1x8x8_S2048x8x8_0_1_2
      (broadcastInDim S1x8x8 ![1, 2] bcast_S8x8_S1x8x8_1_2 below) (ix3 n j k)) = 1#1 ↔ _
  rw [square_apply, IntOp.andi_eq_one, sameTok_apply, StableHlo.Predicate.cmpi_eq_iff, below_eq_one]
  exact ⟨fun h => ⟨h.2, h.1.symm⟩, fun h => ⟨h.2.symm, h.1⟩⟩

/-- The OR over the earlier positions is set exactly when one of them holds the same token. -/
theorem seenBefore_eq_one (x : IVec S2048x8 32) (n : Fin 2048) (j : Fin 8) :
    seenBefore x (ix2 n j) = 1#1 ↔ ∃ k : Fin 8, k < j ∧ x (ix2 n k) = x (ix2 n j) := by
  have hR : S2048x8x8.Reduces [2] S2048x8 := by decide
  unfold seenBefore
  rw [Host.reduce_eq_fold_single IntOp.ori _ _ reducesTo_S2048x8x8_S2048x8_d2 hR h_S_ (ix2 n j)]
  refine (fold_ori_eq_one (ι := Fin (S2048x8x8.size 2)) Finset.univ _).trans ?_
  constructor
  · rintro ⟨k, -, hk⟩
    exact ⟨k, (earlier_at x hR n j k).mp hk⟩
  · rintro ⟨k, hk⟩
    exact ⟨k, Finset.mem_univ _, (earlier_at x hR n j k).mpr hk⟩

/-! ## The weights -/

/-- The weight of position j of row n is the specification's: 1/8 at a first occurrence, 0 at a repeat. -/
theorem weight_apply (x : IVec S2048x8 32) (n : Fin 2048) (j : Fin 8) : weight x (ix2 n j) = wt x n j := by
  have hsel : weight x (ix2 n j)
      = Scalar.select (~~~(seenBefore x (ix2 n j))) (Ideal.ofBits .f32 0x3E000000#32) (Ideal.ofBits .f32 0x00000000#32) := by
    unfold weight
    rw [select_apply, scalar2_apply, scalar2_apply]
    rfl
  rw [hsel]
  unfold wt
  by_cases hF : IsFirst x n j
  · rw [if_pos hF]
    have h0 : seenBefore x (ix2 n j) = 0#1 := eq_zero_of_ne_one (fun h => by
      obtain ⟨k, hlt, he⟩ := (seenBefore_eq_one x n j).mp h
      exact hF k hlt he)
    rw [h0, show ~~~(0#1 : BitVec 1) = 1#1 by decide, select_one]
    rfl
  · rw [if_neg hF]
    have h1 : seenBefore x (ix2 n j) = 1#1 := (seenBefore_eq_one x n j).mpr (by
      by_contra hno
      exact hF (fun k hk he => hno ⟨k, hk, he⟩))
    rw [h1, show ~~~(1#1 : BitVec 1) = 0#1 by decide, select_zero, Ideal.ofBits_zero_f32]

/-! ## The lookup -/

/-- An in-range token is not negative, so the lookup asks for the token's own column. -/
theorem column_apply (x : IVec S2048x8 32) (hx : InRange x) (n : Fin 2048) (j : Fin 8) :
    column x (ix3 n j 0) = x (ix2 n j) := by
  unfold column
  rw [unitLast_apply, select_apply]
  have hneg : cmpi .slt x (broadcastInDim S2048x8 ![] bcast_S_S2048x8 (constantI S_ 32 0#32)) (ix2 n j) = 0#1 := by
    refine eq_zero_of_ne_one (fun h => ?_)
    have e : broadcastInDim S2048x8 ![] bcast_S_S2048x8 (constantI S_ 32 0#32) (ix2 n j) = 0#32 := scalar2_apply _ _
    have h' : IntOp.cmpi .slt (x (ix2 n j)) 0#32 = 1#1 := by
      rw [← e]; exact h
    have hlt := hx (ix2 n j)
    rw [StableHlo.Predicate.slt_iff_toNat (by omega) (by decide)] at h'
    simp at h'
  rw [hneg, select_zero]

/-- Row n, position j with a coordinate put back on the reduced unit axis. -/
theorem lift_unit (h : S2048x8x1.Reduces [2] S2048x8) (n : Fin 2048) (j : Fin 8) (k : Fin 1) :
    h.lift (ix2 n j) k = ix3 n j 0 := by
  funext a
  match a with
  | ⟨0, _⟩ => exact Fin.ext rfl
  | ⟨1, _⟩ => exact Fin.ext rfl
  | ⟨2, _⟩ => exact Fin.ext (by have := k.isLt; show k.val = 0; omega)

/-- Both bounds hold at an in-range token: 0 ≤ column ≤ 49999. -/
theorem bounds_at (x : IVec S2048x8 32) (hx : InRange x) (n : Fin 2048) (j : Fin 8) :
    andi
      (cmpi .sge (column x) (broadcastInDim S2048x8x1 ![] bcast_S_S2048x8x1 (constantI S_ 32 0#32)))
      (cmpi .sle (column x)
        (broadcastInDim S2048x8x1 ![0, 1, 2] bcast_S1x1x1_S2048x8x1_0_1_2
          (broadcastInDim S1x1x1 ![2] bcast_S1_S1x1x1_2 (constantI S1 32 49999#32)))) (ix3 n j 0) = 1#1 := by
  have e0 : broadcastInDim S2048x8x1 ![] bcast_S_S2048x8x1 (constantI S_ 32 0#32) (ix3 n j 0) = 0#32 :=
    broadcastInDim_apply _ bcast_S_S2048x8x1 _ _ ix0 (fun a => a.elim0)
  have e1 : broadcastInDim S2048x8x1 ![0, 1, 2] bcast_S1x1x1_S2048x8x1_0_1_2
      (broadcastInDim S1x1x1 ![2] bcast_S1_S1x1x1_2 (constantI S1 32 49999#32)) (ix3 n j 0) = 49999#32 := by
    rw [broadcastInDim_apply _ bcast_S1x1x1_S2048x8x1_0_1_2 _ (ix3 n j 0) (ix3 0 0 0)
        (fun a => match a with | ⟨0, _⟩ => rfl | ⟨1, _⟩ => rfl | ⟨2, _⟩ => rfl),
      broadcastInDim_apply _ bcast_S1_S1x1x1_2 _ (ix3 0 0 0) (ix1 0) (fun a => match a with | ⟨0, _⟩ => rfl)]
    rfl
  show IntOp.andi (IntOp.cmpi .sge (column x (ix3 n j 0)) _) (IntOp.cmpi .sle (column x (ix3 n j 0)) _) = 1#1
  rw [e0, e1, column_apply x hx]
  have hlt := hx (ix2 n j)
  rw [IntOp.andi_eq_one, StableHlo.Predicate.sge_iff_toNat (by omega) (by decide),
    StableHlo.Predicate.sle_iff_toNat (by omega) (by decide)]
  constructor
  · simp
  · show (x (ix2 n j)).toNat ≤ 49999; omega

/-- The column asked for lies in the table when the token is in range. -/
theorem inTable_eq_one (x : IVec S2048x8 32) (hx : InRange x) (n : Fin 2048) (j : Fin 8) :
    inTable x (ix2 n j) = 1#1 := by
  have hR : S2048x8x1.Reduces [2] S2048x8 := by decide
  unfold inTable
  rw [Host.reduce_eq_fold_single IntOp.andi _ _ reducesTo_S2048x8x1_S2048x8_d2 hR h_S_ (ix2 n j)]
  refine (fold_andi_eq_one (ι := Fin (S2048x8x1.size 2)) Finset.univ _).mpr (fun k _ => ?_)
  rw [Function.comp_apply, lift_unit hR n j k]
  exact bounds_at x hx n j

/-- The lookup read at (d, n, j): W1 at row d and the start index (n, j, 0) names, read signed and clamped into
    the table's columns. Row d is the result's own coordinate on the axis the lookup copies whole; the column
    axis is collapsed, so only the start index speaks for it. -/
theorem gather_apply (W1 : FVec Ideal S256x50000 .f32) (idx : IVec S2048x8x1 32) (d : Fin 256) (n : Fin 2048) (j : Fin 8) :
    Host.gather gather_S256x50000_S2048x8x1_S256x2048x8_0_1_n_n_1_2_2561 W1 idx (ix3 d n j)
      = W1 (ix2 d ⟨min (idx (ix3 n j 0)).toInt.toNat 49999, by omega⟩) := by
  unfold Host.gather
  refine congrArg W1 (funext fun a => ?_)
  match a with
  | ⟨0, _⟩ =>
    refine Fin.ext ?_
    show gather_S256x50000_S2048x8x1_S256x2048x8_0_1_n_n_1_2_2561.start (ix3 d n j) idx 0
      + gather_S256x50000_S2048x8x1_S256x2048x8_0_1_n_n_1_2_2561.batchCoord (ix3 d n j) 0
      + gather_S256x50000_S2048x8x1_S256x2048x8_0_1_n_n_1_2_2561.offCoord (ix3 d n j) 0 = d.val
    rw [GatherDims.batchCoord_eq_zero _ _ _ (by decide)]
    unfold GatherDims.start GatherDims.offCoord
    rw [dif_neg (by decide), dif_pos (by decide)]
    simp only [Nat.add_zero, Nat.zero_add]
    rfl
  | ⟨1, _⟩ =>
    refine Fin.ext ?_
    show gather_S256x50000_S2048x8x1_S256x2048x8_0_1_n_n_1_2_2561.start (ix3 d n j) idx 1
      + gather_S256x50000_S2048x8x1_S256x2048x8_0_1_n_n_1_2_2561.batchCoord (ix3 d n j) 1
      + gather_S256x50000_S2048x8x1_S256x2048x8_0_1_n_n_1_2_2561.offCoord (ix3 d n j) 1
        = min (idx (ix3 n j 0)).toInt.toNat 49999
    rw [GatherDims.batchCoord_eq_zero _ _ _ (by decide), GatherDims.offCoord_eq_zero _ _ _ (by decide)]
    simp only [Nat.add_zero]
    unfold GatherDims.start
    rw [dif_pos (by decide)]
    have hsi : gather_S256x50000_S2048x8x1_S256x2048x8_0_1_n_n_1_2_2561.siIdx (ix3 d n j)
        ⟨List.idxOf (1 : Fin 2) gather_S256x50000_S2048x8x1_S256x2048x8_0_1_n_n_1_2_2561.startIndexMap,
          List.idxOf_lt_length_iff.2 (by decide)⟩ = ix3 n j 0 := by
      funext b
      refine Fin.ext ?_
      match b with
      | ⟨0, _⟩ => rfl
      | ⟨1, _⟩ => rfl
      | ⟨2, _⟩ => rfl
    rw [hsi]
    rfl

/-- Under the precondition the looked-up entry is W1 at row d and the token's column: the mask is set, the start
    index is the token itself, and a word below 50000 reads the same signed and unsigned and is not clamped. -/
theorem taken_apply (x : IVec S2048x8 32) (hx : InRange x) (W1 : FVec Ideal S256x50000 .f32)
    (d : Fin 256) (n : Fin 2048) (j : Fin 8) :
    taken x W1 (ix3 d n j) = W1 (ix2 d (tok x n j)) := by
  unfold taken
  rw [select_apply]
  have hm : broadcastInDim S256x2048x8 ![1, 2] bcast_S2048x8_S256x2048x8_1_2 (inTable x) (ix3 d n j) = 1#1 := by
    rw [broadcastInDim_apply _ bcast_S2048x8_S256x2048x8_1_2 _ (ix3 d n j) (ix2 n j)
      (fun a => match a with | ⟨0, _⟩ => rfl | ⟨1, _⟩ => rfl)]
    exact inTable_eq_one x hx n j
  rw [hm, select_one, gather_apply]
  refine congrArg W1 (congrArg (ix2 d) (Fin.ext ?_))
  show min (column x (ix3 n j 0)).toInt.toNat 49999 = (tok x n j).val
  have hlt := hx (ix2 n j)
  rw [column_apply x hx, tok_val x hx, StableHlo.Predicate.toInt_eq_toNat_of_lt (by omega), Int.toNat_natCast]
  omega

/-! ## The products and their sum -/

/-- Entry (n, j, d) of the products: the specification's weight times W1 at row d and the token's column. -/
theorem products_apply (x : IVec S2048x8 32) (hx : InRange x) (W1 : FVec Ideal S256x50000 .f32)
    (n : Fin 2048) (j : Fin 8) (d : Fin 256) :
    products x W1 (ix3 n j d) = wt x n j * W1 (ix2 d (tok x n j)) := by
  unfold products
  rw [mulf_apply,
    broadcastInDim_apply _ bcast_S2048x8x1_S2048x8x256_0_1_2 _ (ix3 n j d) (ix3 n j 0)
      (fun a => match a with | ⟨0, _⟩ => rfl | ⟨1, _⟩ => rfl | ⟨2, _⟩ => rfl),
    unitLast_apply, weight_apply,
    transpose_apply [1, 2, 0] (taken x W1) transposes_S256x2048x8_S2048x8x256_1_2_0 (ix3 n j d) (ix3 d n j)
      (fun b => match b with | ⟨0, _⟩ => rfl | ⟨1, _⟩ => rfl | ⟨2, _⟩ => rfl),
    taken_apply x hx]

/-- Row n, unit d with the position j put back on the reduced middle axis. -/
theorem lift_mid (h : S2048x8x256.Reduces [1] S2048x256) (n : Fin 2048) (d : Fin 256) (j : Fin 8) :
    h.lift (ix2 n d) j = ix3 n j d := by
  funext a
  match a with
  | ⟨0, _⟩ => exact Fin.ext rfl
  | ⟨1, _⟩ => exact Fin.ext rfl
  | ⟨2, _⟩ => exact Fin.ext rfl

/-- The last stage at (n, d) is the specification's hidden unit: the host sum over one axis is its initial value 0
    plus the sum over the eight positions, the bias is read at d, and the lower cut-off is the word of 0. -/
theorem hostHid_apply (x : IVec S2048x8 32) (hx : InRange x) (W1 : FVec Ideal S256x50000 .f32) (b1 : FVec Ideal S256 .f32)
    (n : Fin 2048) (d : Fin 256) :
    hostHid x W1 b1 (ix2 n d) = hidAt x W1 b1 n d := by
  have hR : S2048x8x256.Reduces [1] S2048x256 := by decide
  have hsum : Host.reduceAdd (products x W1) (constant (F := Ideal) S_ .f32 0x00000000#32)
      reducesTo_S2048x8x256_S2048x256_d1 h_S_ (ix2 n d) = ∑ j : Fin 8, wt x n j * W1 (ix2 d (tok x n j)) := by
    show Ideal.hostReduceAdd reducesTo_S2048x8x256_S2048x256_d1 (products x W1) (Ideal.ofBits .f32 0x00000000#32) (ix2 n d) = _
    rw [Ideal.hostReduceAdd_single reducesTo_S2048x8x256_S2048x256_d1 hR, Ideal.ofBits_zero_f32, zero_add]
    exact Finset.sum_congr rfl (fun j _ =>
      (congrArg (products x W1) (lift_mid hR n d j)).trans (products_apply x hx W1 n j d))
  have hb : broadcastInDim S2048x256 ![0, 1] bcast_S1x256_S2048x256_0_1
      (broadcastInDim S1x256 ![1] bcast_S256_S1x256_1 b1) (ix2 n d) = b1 (ix1 d) := by
    rw [broadcastInDim_apply _ bcast_S1x256_S2048x256_0_1 _ (ix2 n d) (ix2 0 d)
        (fun a => match a with | ⟨0, _⟩ => rfl | ⟨1, _⟩ => rfl),
      broadcastInDim_apply _ bcast_S256_S1x256_1 b1 (ix2 0 d) (ix1 d) (fun a => match a with | ⟨0, _⟩ => rfl)]
  have hz : broadcastInDim S2048x256 ![] bcast_S_S2048x256 (constant (F := Ideal) S_ .f32 0x00000000#32) (ix2 n d) = 0 := by
    rw [broadcastInDim_apply _ bcast_S_S2048x256 _ _ ix0 (fun a => a.elim0), constant_apply, Ideal.ofBits_zero_f32]
  unfold hostHid hidAt
  rw [truncf_apply, maximumf_apply, addf_apply, hsum, hb, hz]

/-! ## The chain of operations -/

/-- The first window's array is the last stage at the launch contents of the tokens, W1 and b1: every operation's
    result is its function of its operands' results, and no operation writes an argument's buffer. -/
theorem V_hostHid (c : Dev nD) :
    (V m c main_v30 : S2048x256.Idx → EReal)
      = hostHid (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  dsimp only [StableHlo.TRef.ofBuf, StableHlo.TRef.toBuf, cast_eq, id_eq]
  unfold hostHid products taken inTable column weight seenBefore sameTok below
  rfl

end HostChain

open HostChain

/-! ## The two windows' arrays -/

/-- The array the first window stages (the host chain's last value before the launch) is the hidden layer of
    the launch contents of the tokens, W1 and b1, when every token is in range. -/
theorem V_hidden (c : Dev nD) (hx : InRange (m ((c : Thread nD τ).loc main_arg0))) :
    (V m c main_v30 : S2048x256.Idx → EReal)
      = hid (m ((c : Thread nD τ).loc main_arg0)) (m ((c : Thread nD τ).loc main_arg1)) (m ((c : Thread nD τ).loc main_arg2)) := by
  rw [V_hostHid]
  funext i
  obtain ⟨n, d, rfl⟩ : ∃ n d, i = ix2 n d := ⟨i 0, i 1, eq_ix2 i⟩
  rw [hid_ix2]
  exact hostHid_apply _ hx _ _ n d

/-- The array the third window stages is b2 laid out as one row. -/
theorem V_biasrow (c : Dev nD) (q : Fin 50000) :
    (V m c main_v31 : S1x50000.Idx → EReal) (ix2 0 q) = m ((c : Thread nD τ).loc main_arg4) (ix1 q) := by
  have e : (V m c main_v31 : S1x50000.Idx → EReal)
      = shapeCast S1x50000 (m ((c : Thread nD τ).loc main_arg4) : S50000.Idx → EReal) shapeCasts_S50000_S1x50000 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results_simp
    rfl
  rw [e]
  exact shapeCast_apply _ shapeCasts_S50000_S1x50000 (ix2 0 q) (ix1 q)
    (by rw [Shape.rowMajor_val_two, Shape.rowMajor_val_one]; show q.val = 0 * 50000 + q.val; omega)

end Cert.KernelIdeal.Hand

end
-- ==== Proof.ValueI.lean ====
/-
  From the tiles to the whole output array: after the last write-back the output holds the common function of
  the launch contents.
-/
import proofs.«426636_j893353198128_3_alg».proof.Proof.DataI
import proofs.«426636_j893353198128_3_alg».proof.Proof.PayI
import proofs.«426636_j893353198128_3_alg».proof.Proof.HostI
import proofs.«426636_j893353198128_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Cbow
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The block indices over the grid, with (ii, kk) the output window's: the hidden block is row tile ii, the W2 block
    row tile kk, the bias block column tile kk; ii is below 2 and kk below 25. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 2 ∧ win0_3.index t (1 : Fin 2) < 25 :=
  (by decide +kernel : ∀ t : Fin grid0.N, _)

/-- What each transfer moves at a point: all 1024 rows of the output tile and its first min 2048 (50000 - 2048 kk)
    columns; exactly as many rows of the W2 block and columns of the bias block, and all of their other axis. -/
theorem size_facts : ∀ t : Fin cfg0.N,
    win0_3.xsize (grid0.coords t) (0 : Fin 2) = 1024
    ∧ win0_3.xsize (grid0.coords t) (1 : Fin 2) = min 2048 (50000 - win0_3.index t (1 : Fin 2) * 2048)
    ∧ win0_1.xsize (grid0.coords t) (0 : Fin 2) = win0_3.xsize (grid0.coords t) (1 : Fin 2)
    ∧ win0_1.xsize (grid0.coords t) (1 : Fin 2) = 256
    ∧ win0_2.xsize (grid0.coords t) (0 : Fin 2) = 1
    ∧ win0_2.xsize (grid0.coords t) (1 : Fin 2) = win0_3.xsize (grid0.coords t) (1 : Fin 2) :=
  (by decide +kernel : ∀ t : Fin grid0.N, _)

/-- Every pair (ii, kk) is some point's. -/
theorem idx_onto : ∀ (q0 : Fin 2) (q1 : Fin 25), ∃ t : Fin cfg0.N, win0_3.index t = ![q0.val, q1.val] :=
  (by decide +kernel : ∀ (q0 : Fin 2) (q1 : Fin 25), ∃ t : Fin grid0.N, win0_3.index t = ![q0.val, q1.val])

/-- An index of the output array lies in point t's block iff on each axis it is at or past the block's start and
    before the end of the part the transfer moves. -/
theorem mem_blk3 (t : Fin cfg0.N) (i : S2048x50000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v32).slice (win0_3.rect t)).set ↔ _
  rw [View.set_slice_whole, Rect.mem_set_unit]
  exact Iff.rfl

/-- The tiles cover the output: entry (n, v) lies in the block of the point with ii = n / 1024, kk = v / 2048; in
    the last column tile v - 2048 * 24 is below 848, the part moved. -/
theorem cover3 (i : S2048x50000.Idx) :
    ∃ t : Fin cfg0.N, (cfg0.win 3).flush t = true ∧ i ∈ ((cfg0.win 3).blk t).view.set := by
  have hi0 : (i 0).val < 2048 := (i 0).isLt
  have hi1 : (i 1).val < 50000 := (i 1).isLt
  obtain ⟨t, ht⟩ := idx_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  obtain ⟨s0, s1, -⟩ := size_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + win0_3.xsize (grid0.coords t) (0 : Fin 2)
    rw [s0]; omega
  | ⟨1, _⟩ =>
    show win0_3.index t (1 : Fin 2) * 2048 ≤ (i 1).val ∧ (i 1).val < win0_3.index t (1 : Fin 2) * 2048 + win0_3.xsize (grid0.coords t) (1 : Fin 2)
    rw [s1]; omega

/-- An entry of a filled block whose every coordinate lies in the moved part is the moved block's entry. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill
  rw [dif_pos ((w.moved_iff i j).mpr h)]

/-- Row p of the hidden block at point t is row 1024 ii + p of the hidden layer. -/
theorem hblk_at (c : Dev nD) (hx : InRange (m ((c : Thread nD τ).loc main_arg0))) (t : Fin cfg0.N)
    (p : Fin 1024) (k : Fin 256) (n : Fin 2048) (hn : n.val = win0_3.index t (0 : Fin 2) * 1024 + p.val) :
    (hblk m c t : S1024x256.Idx → EReal) (ix2 p k)
      = hidAt (m ((c : Thread nD τ).loc main_arg0)) (m ((c : Thread nD τ).loc main_arg1)) (m ((c : Thread nD τ).loc main_arg2)) n k := by
  obtain ⟨e0, e1, -⟩ := idx_facts t
  have e : ((cfg0.win 0).blk t).view.emb (ix2 p k) = ix2 n k := by
    funext a; apply Fin.ext
    match a with
    | ⟨0, _⟩ => show win0_0.index t (0 : Fin 2) * 1024 + 1 * p.val = n.val; omega
    | ⟨1, _⟩ => show win0_0.index t (1 : Fin 2) * 256 + 1 * k.val = k.val; omega
  calc (hblk m c t : S1024x256.Idx → EReal) (ix2 p k)
      = (V m c main_v30 : S2048x256.Idx → EReal) (((cfg0.win 0).blk t).view.emb (ix2 p k)) := rfl
    _ = hid (m ((c : Thread nD τ).loc main_arg0)) (m ((c : Thread nD τ).loc main_arg1)) (m ((c : Thread nD τ).loc main_arg2))
          (((cfg0.win 0).blk t).view.emb (ix2 p k)) := by rw [V_hidden m c hx]
    _ = hid (m ((c : Thread nD τ).loc main_arg0)) (m ((c : Thread nD τ).loc main_arg1)) (m ((c : Thread nD τ).loc main_arg2)) (ix2 n k) := by rw [e]
    _ = _ := rfl

/-- Row q of the W2 block at point t, when it is among the rows moved, is row 2048 kk + q of W2. -/
theorem wblk_at (c : Dev nD) (t : Fin cfg0.N) (q : Fin 2048) (k : Fin 256) (v : Fin 50000)
    (hq : q.val < win0_3.xsize (grid0.coords t) (1 : Fin 2)) (hv : v.val = win0_3.index t (1 : Fin 2) * 2048 + q.val) :
    (wblk m c t : S2048x256.Idx → EReal) (ix2 q k) = m ((c : Thread nD τ).loc main_arg3) (ix2 v k) := by
  obtain ⟨-, -, e2, e3, -⟩ := idx_facts t
  obtain ⟨-, -, s2, s3, -⟩ := size_facts t
  have hmv : ∀ a, ((ix2 q k : S2048x256.Idx) a).val < win0_1.xsize (grid0.coords t) a := fun a => by
    match a with
    | ⟨0, _⟩ => show q.val < win0_1.xsize (grid0.coords t) (0 : Fin 2); omega
    | ⟨1, _⟩ => show k.val < win0_1.xsize (grid0.coords t) (1 : Fin 2); have := k.isLt; omega
  have e : ((cfg0.win 1).blk t).view.emb (fun a => ⟨((ix2 q k : S2048x256.Idx) a).val, hmv a⟩) = ix2 v k := by
    funext a; apply Fin.ext
    match a with
    | ⟨0, _⟩ => show win0_1.index t (0 : Fin 2) * 2048 + 1 * q.val = v.val; omega
    | ⟨1, _⟩ => show win0_1.index t (1 : Fin 2) * 256 + 1 * k.val = k.val; omega
  calc (wblk m c t : S2048x256.Idx → EReal) (ix2 q k)
      = iblk m c 1 t (fun a => ⟨((ix2 q k : S2048x256.Idx) a).val, hmv a⟩) :=
        fill_apply_of_lt win0_1 (grid0.coords t) _ (iblk m c 1 t) (ix2 q k) hmv
    _ = (V m c main_arg3 : S50000x256.Idx → EReal) (((cfg0.win 1).blk t).view.emb (fun a => ⟨((ix2 q k : S2048x256.Idx) a).val, hmv a⟩)) := rfl
    _ = m ((c : Thread nD τ).loc main_arg3) (((cfg0.win 1).blk t).view.emb (fun a => ⟨((ix2 q k : S2048x256.Idx) a).val, hmv a⟩)) := by
        rw [V_main_arg3 m c]
    _ = _ := by rw [e]

/-- Column q of the bias block at point t, when it is among the columns moved, is entry 2048 kk + q of b2. -/
theorem bblk_at (c : Dev nD) (t : Fin cfg0.N) (q : Fin 2048) (v : Fin 50000)
    (hq : q.val < win0_3.xsize (grid0.coords t) (1 : Fin 2)) (hv : v.val = win0_3.index t (1 : Fin 2) * 2048 + q.val) :
    (bblk m c t : S1x2048.Idx → EReal) (ix2 0 q) = m ((c : Thread nD τ).loc main_arg4) (ix1 v) := by
  obtain ⟨-, -, -, -, e4, e5, -⟩ := idx_facts t
  obtain ⟨-, -, -, -, s4, s5⟩ := size_facts t
  have hmv : ∀ a, ((ix2 0 q : S1x2048.Idx) a).val < win0_2.xsize (grid0.coords t) a := fun a => by
    match a with
    | ⟨0, _⟩ => show 0 < win0_2.xsize (grid0.coords t) (0 : Fin 2); omega
    | ⟨1, _⟩ => show q.val < win0_2.xsize (grid0.coords t) (1 : Fin 2); omega
  have e : ((cfg0.win 2).blk t).view.emb (fun a => ⟨((ix2 0 q : S1x2048.Idx) a).val, hmv a⟩) = ix2 0 v := by
    funext a; apply Fin.ext
    match a with
    | ⟨0, _⟩ => show win0_2.index t (0 : Fin 2) * 1 + 1 * 0 = 0; omega
    | ⟨1, _⟩ => show win0_2.index t (1 : Fin 2) * 2048 + 1 * q.val = v.val; omega
  calc (bblk m c t : S1x2048.Idx → EReal) (ix2 0 q)
      = iblk m c 2 t (fun a => ⟨((ix2 0 q : S1x2048.Idx) a).val, hmv a⟩) :=
        fill_apply_of_lt win0_2 (grid0.coords t) _ (iblk m c 2 t) (ix2 0 q) hmv
    _ = (V m c main_v31 : S1x50000.Idx → EReal) (((cfg0.win 2).blk t).view.emb (fun a => ⟨((ix2 0 q : S1x2048.Idx) a).val, hmv a⟩)) := rfl
    _ = (V m c main_v31 : S1x50000.Idx → EReal) (ix2 0 v) := by rw [e]
    _ = _ := V_biasrow m c v

/-- Entry (p, q) of the computed tile, for a column q that is written back, is the output at row 1024 ii + p and
    vocabulary entry 2048 kk + q: the zero word is 0, the three blocks are read inside their arrays. -/
theorem tile_entry (c : Dev nD) (hx : InRange (m ((c : Thread nD τ).loc main_arg0))) (t : Fin cfg0.N)
    (p : Fin 1024) (q : Fin 2048) (n : Fin 2048) (v : Fin 50000)
    (hq : q.val < win0_3.xsize (grid0.coords t) (1 : Fin 2))
    (hn : n.val = win0_3.index t (0 : Fin 2) * 1024 + p.val) (hv : v.val = win0_3.index t (1 : Fin 2) * 2048 + q.val) :
    k0_pay1 (F := Ideal) (hblk m c t) (wblk m c t) (bblk m c t) (ix2 p q)
      = outAt (m ((c : Thread nD τ).loc main_arg0)) (m ((c : Thread nD τ).loc main_arg1)) (m ((c : Thread nD τ).loc main_arg2)) (m ((c : Thread nD τ).loc main_arg3)) (m ((c : Thread nD τ).loc main_arg4)) n v := by
  have hs : (∑ k : Fin 256, (hblk m c t : S1024x256.Idx → EReal) (ix2 p k) * (wblk m c t : S2048x256.Idx → EReal) (ix2 q k))
      = ∑ k : Fin 256, hidAt (m ((c : Thread nD τ).loc main_arg0)) (m ((c : Thread nD τ).loc main_arg1)) (m ((c : Thread nD τ).loc main_arg2)) n k * m ((c : Thread nD τ).loc main_arg3) (ix2 v k) :=
    Finset.sum_congr rfl fun k _ => by rw [hblk_at m c hx t p k n hn, wblk_at m c t q k v hq hv]
  rw [pay_apply, Ideal.ofBits_zero_f32, zero_add, hs, bblk_at m c t q v hq hv]
  rfl

/-- What point t writes back is its block of the common function. -/
theorem flushed3_eq (c : Dev nD) (hx : InRange (m ((c : Thread nD τ).loc main_arg0))) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 3).cut (grid0.coords t) ((dats m 0 c).after 3 t) = _
  rw [dats_after3]
  obtain ⟨-, -, -, -, -, -, b0, b1⟩ := idx_facts t
  obtain ⟨s0, s1, -⟩ := size_facts t
  funext j
  have hj0 : (j 0).val < 1024 := lt_of_lt_of_eq (j 0).isLt s0
  have hj1 : (j 1).val < win0_3.xsize (grid0.coords t) (1 : Fin 2) := (j 1).isLt
  obtain ⟨p, hp⟩ : ∃ p : Fin 1024, p.val = (j 0).val := ⟨⟨_, hj0⟩, rfl⟩
  obtain ⟨q, hq⟩ : ∃ q : Fin 2048, q.val = (j 1).val := ⟨⟨(j 1).val, by omega⟩, rfl⟩
  obtain ⟨n, hn⟩ : ∃ n : Fin 2048, n.val = win0_3.index t (0 : Fin 2) * 1024 + p.val :=
    ⟨⟨win0_3.index t (0 : Fin 2) * 1024 + p.val, by omega⟩, rfl⟩
  obtain ⟨v, hv⟩ : ∃ v : Fin 50000, v.val = win0_3.index t (1 : Fin 2) * 2048 + q.val :=
    ⟨⟨win0_3.index t (1 : Fin 2) * 2048 + q.val, by omega⟩, rfl⟩
  have hq' : q.val < win0_3.xsize (grid0.coords t) (1 : Fin 2) := by omega
  have ej : win0_3.xinj (grid0.coords t) j = ix2 p q := by
    funext a; apply Fin.ext
    match a with
    | ⟨0, _⟩ => exact hp.symm
    | ⟨1, _⟩ => exact hq.symm
  have er : ((cfg0.win 3).blk t).view.emb j = ix2 n v := by
    funext a; apply Fin.ext
    match a with
    | ⟨0, _⟩ => show win0_3.index t (0 : Fin 2) * 1024 + 1 * (j 0).val = n.val; omega
    | ⟨1, _⟩ => show win0_3.index t (1 : Fin 2) * 2048 + 1 * (j 1).val = v.val; omega
  show oblk m c t (win0_3.xinj (grid0.coords t) j)
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 3).blk t).view.emb j)
  rw [ej, er, G_ix2]
  exact tile_entry m c hx t p q n v hq' hn hv

/-- The output array after the run: the 50 tiles, each cut at the array's last column, piece the common
    function together. -/
theorem final_out (c : Dev nD) (hx : InRange (m ((c : Thread nD τ).loc main_arg0))) :
    ((dats m 0 c).arrAt 3 cfg0.N : S2048x50000.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  exact (dats m 0 c).arrAt_eq_of_cover 3 _ (fun t _ => flushed3_eq m c hx t) cover3

end Cert.KernelIdeal.Hand

end
-- ==== Proof.Bridge.lean ====
/-
  Counting every distinct token of a row once. The one-hot row has 1/8 at every vocabulary entry that occurs
  among the row's eight tokens and 0 elsewhere; its product with a row of W1 is the sum of 1/8 * W1[d, v] over
  the DISTINCT tokens v of the row, which is the sum over the eight positions with a repeat weighted 0.
-/
import proofs.«426636_j893353198128_3_alg».proof.Proof.Spec

noncomputable section

open scoped BigOperators

namespace Cert.Cbow

open Idealize.ShloMosaic Idealize.ShloMosaic.ValueIdx

/-- In range, two positions of a row hold the same token exactly when they hold the same word: the token's
    value is the word's unsigned value, and a word is determined by its unsigned value. -/
theorem tok_eq_iff_word (x : IVec SX 32) (hx : InRange x) (n : Fin 2048) (k j : Fin 8) :
    tok x n k = tok x n j ↔ x (ix2 n k) = x (ix2 n j) := by
  constructor
  · intro h
    apply BitVec.eq_of_toNat_eq
    have hv : (tok x n k).val = (tok x n j).val := congrArg Fin.val h
    rwa [tok_val x hx, tok_val x hx] at hv
  · intro h
    apply Fin.ext
    rw [tok_val x hx, tok_val x hx, h]

/-- Every position's word has a first occurrence in its row: descend from the position to an earlier one
    with the same word as long as there is one; the positions are bounded below, so the descent stops. -/
theorem exists_first_occ (x : IVec SX 32) (n : Fin 2048) (j : Fin 8) :
    ∃ k : Fin 8, IsFirst x n k ∧ x (ix2 n k) = x (ix2 n j) := by
  suffices h : ∀ m : ℕ, ∀ j : Fin 8, j.val = m → ∃ k : Fin 8, IsFirst x n k ∧ x (ix2 n k) = x (ix2 n j) from
    h j.val j rfl
  intro m
  induction m using Nat.strong_induction_on with
  | _ m ih =>
    intro j hj
    by_cases hf : IsFirst x n j
    · exact ⟨j, hf, rfl⟩
    · unfold IsFirst at hf
      simp only [not_forall, not_not] at hf
      obtain ⟨k, hkj, hk⟩ := hf
      obtain ⟨k', hk'1, hk'2⟩ := ih k.val (by rw [← hj]; exact hkj) k rfl
      exact ⟨k', hk'1, hk'2.trans hk⟩

/-- Two first occurrences that hold the same word are the same position: the later of two different ones
    would have the earlier one before it with its word. -/
theorem first_occ_inj (x : IVec SX 32) (n : Fin 2048) (j k : Fin 8) (hj : IsFirst x n j) (hk : IsFirst x n k)
    (h : x (ix2 n j) = x (ix2 n k)) : j = k := by
  rcases lt_trichotomy j k with hlt | heq | hgt
  · exact absurd h (hk j hlt)
  · exact heq
  · exact absurd h.symm (hj k hgt)

open Classical in
/-- The one-hot row against a row of W1 is the weighted sum over the eight positions. No finiteness is
    needed: a zero weight annihilates every extended real, and the rest is a re-indexing of a finite sum. -/
theorem onehot_dot (x : IVec SX 32) (hx : InRange x) (W1 : FVec Ideal SW1 .f32) (n : Fin 2048) (d : Fin 256) :
    ∑ v : Fin 50000, (if ∃ j : Fin 8, tok x n j = v then c8 else 0) * W1 (ix2 d v)
      = ∑ j : Fin 8, wt x n j * W1 (ix2 d (tok x n j)) := by
  -- the tokens that occur in the row are the images of the first occurrences
  have hS : (Finset.univ.filter fun v : Fin 50000 => ∃ j : Fin 8, tok x n j = v)
      = (Finset.univ.filter fun j : Fin 8 => IsFirst x n j).image (tok x n) := by
    ext v
    simp only [Finset.mem_filter, Finset.mem_univ, true_and, Finset.mem_image]
    constructor
    · rintro ⟨j, rfl⟩
      obtain ⟨k, hk1, hk2⟩ := exists_first_occ x n j
      exact ⟨k, hk1, (tok_eq_iff_word x hx n k j).mpr hk2⟩
    · rintro ⟨j, _, rfl⟩
      exact ⟨j, rfl⟩
  -- and on the first occurrences the token map is one to one
  have hinj : Set.InjOn (tok x n) (Finset.univ.filter fun j : Fin 8 => IsFirst x n j : Finset (Fin 8)) := by
    intro j hj k hk h
    simp only [Finset.coe_filter, Finset.mem_univ, true_and, Set.mem_setOf_eq] at hj hk
    exact first_occ_inj x n j k hj hk ((tok_eq_iff_word x hx n j k).mp h)
  calc ∑ v : Fin 50000, (if ∃ j : Fin 8, tok x n j = v then c8 else 0) * W1 (ix2 d v)
      = ∑ v ∈ Finset.univ.filter (fun v : Fin 50000 => ∃ j : Fin 8, tok x n j = v), c8 * W1 (ix2 d v) := by
        rw [Finset.sum_filter]
        refine Finset.sum_congr rfl fun v _ => ?_
        split_ifs
        · rfl
        · exact zero_mul _
    _ = ∑ j ∈ Finset.univ.filter (fun j : Fin 8 => IsFirst x n j), c8 * W1 (ix2 d (tok x n j)) := by
        rw [hS, Finset.sum_image hinj]
    _ = ∑ j : Fin 8, wt x n j * W1 (ix2 d (tok x n j)) := by
        rw [Finset.sum_filter]
        refine Finset.sum_congr rfl fun j _ => ?_
        unfold wt
        split_ifs
        · rfl
        · exact (zero_mul _).symm

end Cert.Cbow

end
-- ==== Proof.OneHot.lean ====
/-
  The reference's scattered one-hot matrix, read at an entry.
-/
import proofs.«426636_j893353198128_3_alg».proof.Proof.Gen.ReferenceIdeal.Read
import proofs.«426636_j893353198128_3_alg».proof.Proof.Spec
import Idealize.ShloMosaic.Lib.Pipeline.Value
import Idealize.ShloMosaic.Lib.ValueIdx
import Idealize.ShloMosaic.Lib.StableHlo.Predicate

noncomputable section

namespace Cert.ReferenceIdeal.RefValue

open Cert.ReferenceIdeal Cert.ReferenceIdeal.Gen Cert.Cbow
open Idealize.ShloMosaic Idealize.ShloMosaic.TcCoe Idealize.SL.Sem Idealize.ShloMosaic.ValueIdx

/-! ## A fold of writes of one word, read at an index -/

section Fold
variable {ι κ α : Type}

/-- A left fold of steps, each of which writes the word `c` at the index `tgt n` (when there is one) and leaves every
    other index alone, read at `i'`: once the value there is `c` — from the start, or because some step wrote at
    `i'` — it stays `c`, since every later write at `i'` writes `c` again. -/
theorem foldl_read_of_hit (step : (ι → α) → κ → ι → α) (tgt : κ → Option ι) (c : α) (i' : ι)
    (h1 : ∀ r n, tgt n = some i' → step r n i' = c)
    (h2 : ∀ r n, tgt n ≠ some i' → step r n i' = r i') :
    ∀ (l : List κ) (x : ι → α), (x i' = c ∨ ∃ n ∈ l, tgt n = some i') → l.foldl step x i' = c := by
  intro l
  induction l with
  | nil =>
    intro x h
    rcases h with h | ⟨n, hn, _⟩
    · exact h
    · exact absurd hn List.not_mem_nil
  | cons n l ih =>
    intro x h
    rw [List.foldl_cons]
    apply ih
    by_cases hn : tgt n = some i'
    · exact Or.inl (h1 x n hn)
    · rcases h with h | ⟨m, hm, hmt⟩
      · exact Or.inl ((h2 x n hn).trans h)
      · rcases List.mem_cons.1 hm with rfl | hm'
        · exact absurd hmt hn
        · exact Or.inr ⟨m, hm', hmt⟩

/-- The same fold read at an index no step writes at: the start value. -/
theorem foldl_read_of_miss (step : (ι → α) → κ → ι → α) (tgt : κ → Option ι) (i' : ι)
    (h2 : ∀ r n, tgt n ≠ some i' → step r n i' = r i') :
    ∀ (l : List κ) (x : ι → α), (∀ n ∈ l, tgt n ≠ some i') → l.foldl step x i' = x i' := by
  intro l
  induction l with
  | nil => intro x _; rfl
  | cons n l ih =>
    intro x h
    rw [List.foldl_cons, ih _ (fun m hm => h m (List.mem_cons_of_mem _ hm))]
    exact h2 x n (h n List.mem_cons_self)

end Fold

/-! ## A scatter that SETS one and the same word -/

section Scatter
variable {s si u : Shape} {α : Type} {w : Nat}

/-- A set-scatter whose updates all hold the word `c`, read at an index some update lands on: `c`. Which of the
    colliding updates is taken last does not matter, they all write `c`. -/
theorem scatter_set_const_hit (d : ScatterDims s si u) (x : s.Idx → α) (idx : IVec si w) (upd : u.Idx → α) (c : α)
    (hc : ∀ j, upd j = c) (i' : s.Idx) (h : ∃ j : u.Idx, d.resultIdx? j idx = some i') :
    Host.scatter d (fun _ b => b) x idx upd i' = c := by
  obtain ⟨j, hj⟩ := h
  unfold Host.scatter
  refine foldl_read_of_hit _ (fun n => d.resultIdx? (u.rowMajor.symm n) idx) c i' ?_ ?_ _ x
    (Or.inr ⟨u.rowMajor j, List.mem_finRange _, by simpa using hj⟩)
  · intro r n hn
    simp only [hn, hc, ↓reduceIte]
  · intro r n hn
    generalize d.resultIdx? (u.rowMajor.symm n) idx = o at hn
    cases o with
    | none => rfl
    | some i =>
      show (if i' = i then _ else r i') = r i'
      rw [if_neg (fun e => hn (by rw [e]))]

/-- The same scatter read at an index no update lands on: the operand there. -/
theorem scatter_set_const_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  unfold Host.scatter
  refine foldl_read_of_miss _ (fun n => d.resultIdx? (u.rowMajor.symm n) idx) i' ?_ _ x (fun n _ => h _)
  intro r n hn
  generalize d.resultIdx? (u.rowMajor.symm n) idx = o at hn
  cases o with
  | none => rfl
  | some i =>
    show (if i' = i then _ else r i') = r i'
    rw [if_neg (fun e => hn (by rw [e]))]

end Scatter

/-! ## Where an update of this scatter lands -/

/-- The scatter's dimension numbers: both operand axes are scattered, an index vector is a row of the index array. -/
abbrev sd : ScatterDims S2048x50000 S16384x2 S16384 := scatter_S2048x50000_S16384x2_S16384_n_01_01_1

/-- Update `k` reads the two components of its start index from row `k` of the index array. -/
theorem sd_start0 (idx : IVec S16384x2 32) (k : Fin 16384) :
    sd.start (ix1 k) idx 0 = (idx (ix2 k (0 : Fin 2))).toInt := by
  unfold ScatterDims.start
  rw [dif_pos (by decide)]
  congr 2
  funext b
  match b with
  | ⟨0, _⟩ => rfl
  | ⟨1, _⟩ => rfl

theorem sd_start1 (idx : IVec S16384x2 32) (k : Fin 16384) :
    sd.start (ix1 k) idx 1 = (idx (ix2 k (1 : Fin 2))).toInt := by
  unfold ScatterDims.start
  rw [dif_pos (by decide)]
  congr 2
  funext b
  match b with
  | ⟨0, _⟩ => rfl
  | ⟨1, _⟩ => rfl

/-- Both operand axes are inserted window axes: an update is one element, its window coordinate is zero. -/
theorem sd_window (j : S16384.Idx) (a : Fin 2) : sd.window j a = 0 := by
  unfold ScatterDims.window
  rw [dif_neg (by revert a; decide)]

/-- Update `k` lands at (row word, column word), both read signed, when that is an entry of the matrix. -/
theorem sd_resultIdx (idx : IVec S16384x2 32) (k : Fin 16384) (r : Fin 2048) (t : Fin 50000)
    (h0 : (idx (ix2 k (0 : Fin 2))).toInt = (r.val : Int)) (h1 : (idx (ix2 k (1 : Fin 2))).toInt = (t.val : Int)) :
    sd.resultIdx? (ix1 k) idx = some (ix2 r t) := by
  have e0 : sd.start (ix1 k) idx 0 + (sd.window (ix1 k) 0 : Nat) = (r.val : Int) := by
    rw [sd_start0, sd_window, h0]; simp
  have e1 : sd.start (ix1 k) idx 1 + (sd.window (ix1 k) 1 : Nat) = (t.val : Int) := by
    rw [sd_start1, sd_window, h1]; simp
  have H : ∀ a : Fin 2, 0 ≤ sd.start (ix1 k) idx a + (sd.window (ix1 k) a : Nat) ∧
      sd.start (ix1 k) idx a + (sd.window (ix1 k) a : Nat) < S2048x50000.size a := by
    intro a
    match a with
    | ⟨0, _⟩ => rw [show (⟨0, by decide⟩ : Fin 2) = 0 from rfl, e0]; have := r.isLt; constructor; omega; show (r.val : Int) < 2048; omega
    | ⟨1, _⟩ => rw [show (⟨1, by decide⟩ : Fin 2) = 1 from rfl, e1]; have := t.isLt; constructor; omega; show (t.val : Int) < 50000; omega
  unfold ScatterDims.resultIdx?
  rw [dif_pos H]
  congr 1
  funext a
  match a with
  | ⟨0, _⟩ => apply Fin.ext; show (sd.start (ix1 k) idx 0 + (sd.window (ix1 k) 0 : Nat)).toNat = r.val; rw [e0]; simp
  | ⟨1, _⟩ => apply Fin.ext; show (sd.start (ix1 k) idx 1 + (sd.window (ix1 k) 1 : Nat)).toNat = t.val; rw [e1]; simp

/-! ## The index array: row `k` holds (row number, token) of flat position `k` -/

/-- The row of the token array that flat position `k` of its row-major reading lies in. -/
def rowOf (k : Fin 16384) : Fin 2048 := ⟨k.val / 8, by have := k.isLt; omega⟩
/-- The position inside its row of flat position `k`. -/
def posOf (k : Fin 16384) : Fin 8 := ⟨k.val % 8, Nat.mod_lt _ (by norm_num)⟩

/-- Column 0 of the index array is the first joined piece. -/
theorem v17_col0 (x : IVec S2048x8 32) (k : Fin 16384) :
    Read.val_main_v17 (F := Ideal) x (ix2 k (0 : Fin 2)) = Read.val_main_v9 (F := Ideal) (ix1 k) := by
  unfold Read.val_main_v17
  rw [concatenate_pair_apply_left (t := S16384x2) (s₁ := S16384x1) (s₂ := S16384x1) 1 _ _ _ (ix2 k (0 : Fin 2)) rfl (ix2 k (0 : Fin 1))
    (fun b => match b with | ⟨0, _⟩ => rfl | ⟨1, _⟩ => rfl), Read.val_main_v15_apply]
  rfl

/-- Column 1 of the index array is the second joined piece. -/
theorem v17_col1 (x : IVec S2048x8 32) (k : Fin 16384) :
    Read.val_main_v17 (F := Ideal) x (ix2 k (1 : Fin 2)) = Read.val_main_v14 (F := Ideal) x (ix1 k) := by
  unfold Read.val_main_v17
  rw [concatenate_pair_apply_right (t := S16384x2) (s₁ := S16384x1) (s₂ := S16384x1) 1 _ _ _ (ix2 k (1 : Fin 2)) rfl rfl (ix2 k (0 : Fin 1))
    (fun b => match b with | ⟨0, _⟩ => fun _ => rfl | ⟨1, _⟩ => fun h => absurd rfl h) rfl, Read.val_main_v16_apply]
  rfl

/-- The row numbers: position `k` of the flattened [2048, 8] array of row numbers holds `k / 8`; it is not negative,
    so the wrap-around of negative indices leaves it alone. -/
theorem v9_apply (k : Fin 16384) : Read.val_main_v9 (F := Ideal) (ix1 k) = BitVec.ofNat 32 (rowOf k).val := by
  have h2 : Read.val_main_v2 (F := Ideal) (ix1 k) = BitVec.ofNat 32 (rowOf k).val := by
    rw [Read.val_main_v2_apply, Read.val_main_v1_apply, Read.val_main_v0_apply]; rfl
  have h5 : Read.val_main_v5 (F := Ideal) (ix1 k) = 0#32 := by
    rw [Read.val_main_v5_apply, Read.val_main_c_apply]
  have hlt : (rowOf k).val < 2048 := (rowOf k).isLt
  have hc : Read.val_main_v6 (F := Ideal) (ix1 k) = 0#1 := by
    rw [Read.val_main_v6_apply, h2, h5]
    apply eq_zero_of_ne_one
    rw [StableHlo.Predicate.slt_iff_toNat (by rw [BitVec.toNat_ofNat]; omega) (by decide)]
    simp
  rw [Read.val_main_v9_apply, hc, select_zero, h2]

/-- The tokens: position `k` of the flattened token array holds the token at (k / 8, k % 8); a word below 50000 is
    not negative, so the wrap-around of negative indices leaves it alone. -/
theorem v14_apply (x : IVec S2048x8 32) (hx : InRange x) (k : Fin 16384) :
    Read.val_main_v14 (F := Ideal) x (ix1 k) = x (ix2 (rowOf k) (posOf k)) := by
  have h3 : Read.val_main_v3 (F := Ideal) x (ix1 k) = x (ix2 (rowOf k) (posOf k)) := by
    rw [Read.val_main_v3_apply]
    congr 1
    funext a
    match a with
    | ⟨0, _⟩ => rfl
    | ⟨1, _⟩ => rfl
  have h10 : Read.val_main_v10 (F := Ideal) (ix1 k) = 0#32 := by
    rw [Read.val_main_v10_apply, Read.val_main_c_1_apply]
  have hlt : (x (ix2 (rowOf k) (posOf k))).toNat < 50000 := hx _
  have hc : Read.val_main_v11 (F := Ideal) x (ix1 k) = 0#1 := by
    rw [Read.val_main_v11_apply, h3, h10]
    apply eq_zero_of_ne_one
    rw [StableHlo.Predicate.slt_iff_toNat (by omega) (by decide)]
    simp
  rw [Read.val_main_v14_apply, hc, select_zero, h3]

/-- Update `k` lands at (k / 8, the token at (k / 8, k % 8)). -/
theorem landing (x : IVec S2048x8 32) (hx : InRange x) (k : Fin 16384) :
    sd.resultIdx? (ix1 k) (Read.val_main_v17 (F := Ideal) x) = some (ix2 (rowOf k) (tok x (rowOf k) (posOf k))) := by
  apply sd_resultIdx
  · rw [v17_col0, v9_apply]
    exact StableHlo.Predicate.toInt_ofNat_small _ (by have := (rowOf k).isLt; omega)
  · rw [v17_col1, v14_apply x hx, tok_val x hx]
    exact StableHlo.Predicate.toInt_eq_toNat_of_lt (by have := hx (ix2 (rowOf k) (posOf k)); omega)

/-! ## The one-hot matrix at an entry -/

open Classical in
/-- The scattered one-hot matrix at (n, v): 1/8 when v is one of row n's tokens, zero otherwise. Every
    update writes the same word, so the order in which duplicates land does not matter. -/
theorem onehot_apply (x : IVec S2048x8 32) (hx : InRange x) (n : Fin 2048) (v : Fin 50000) :
    Read.val_main_v19 (F := Ideal) x (ix2 n v) = if ∃ j : Fin 8, tok x n j = v then c8 else 0 := by
  -- every update holds the word of 1/8
  have hupd : ∀ j : S16384.Idx, Read.val_main_v18 (F := Ideal) j = c8 := by
    intro j; rw [Read.val_main_v18_apply, Read.val_main_cst_3_apply]; rfl
  unfold Read.val_main_v19
  by_cases h : ∃ j : Fin 8, tok x n j = v
  · -- position j of row n is flat position 8 n + j, and that update lands on (n, v)
    rw [if_pos h]
    obtain ⟨j, hj⟩ := h
    have hk : 8 * n.val + j.val < 16384 := by have := n.isLt; have := j.isLt; omega
    have hr : rowOf ⟨8 * n.val + j.val, hk⟩ = n :=
      Fin.ext (by show (8 * n.val + j.val) / 8 = n.val; have := j.isLt; omega)
    have hp : posOf ⟨8 * n.val + j.val, hk⟩ = j :=
      Fin.ext (by show (8 * n.val + j.val) % 8 = j.val; have := j.isLt; omega)
    refine scatter_set_const_hit sd _ _ _ c8 hupd _ ⟨ix1 ⟨8 * n.val + j.val, hk⟩, ?_⟩
    rw [landing x hx, hr, hp, hj]
  · -- an update landing on (n, v) would be a position of row n holding v
    rw [if_neg h, scatter_set_const_miss sd]
    · rw [Read.val_main_v4_apply, Read.val_main_cst_apply]; exact Ideal.ofBits_zero_f32
    · intro j' e
      obtain ⟨k, rfl⟩ : ∃ k, j' = ix1 k := ⟨j' 0, eq_ix1 j'⟩
      rw [landing x hx] at e
      have e' := Option.some.inj e
      have e0 : rowOf k = n := congrFun e' 0
      have e1 : tok x (rowOf k) (posOf k) = v := congrFun e' 1
      exact h ⟨posOf k, by rw [← e0]; exact e1⟩

end Cert.ReferenceIdeal.RefValue

end
-- ==== Proof.RefI.lean ====
/-
  The reference, one operation at a time, is the common function.
-/
import proofs.«426636_j893353198128_3_alg».proof.Proof.Gen.ReferenceIdeal.Read
import proofs.«426636_j893353198128_3_alg».proof.Proof.Spec
import proofs.«426636_j893353198128_3_alg».proof.Proof.Bridge
import proofs.«426636_j893353198128_3_alg».proof.Proof.OneHot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.Cbow
open Idealize.ShloMosaic Idealize.ShloMosaic.TcCoe Idealize.SL.Sem Idealize.ShloMosaic.ValueIdx

/-- Row n of the scattered one-hot matrix against row d of W1: the one-hot entry at (n, v) is 1/8 exactly at
    the tokens of the row, so the product is the sum over the eight positions, a repeat counted with weight 0. -/
theorem onehot_row_dot (x : IVec S2048x8 32) (hx : InRange x) (W1 : FVec Ideal S256x50000 .f32) (n : Fin 2048)
    (d : Fin 256) :
    ∑ v : Fin 50000, Read.val_main_v19 (F := Ideal) x (ix2 n v) * W1 (ix2 d v)
      = ∑ j : Fin 8, wt x n j * W1 (ix2 d (tok x n j)) := by
  rw [← onehot_dot x hx W1 n d]
  refine Finset.sum_congr rfl fun v _ => ?_
  rw [onehot_apply x hx n v]
  -- the same case distinction on both sides, whichever way "v occurs in the row" is decided
  by_cases h : ∃ j : Fin 8, tok x n j = v
  · simp only [if_pos h]
  · simp only [if_neg h]

/-- The reference's hidden layer is the common one. -/
theorem ref_hidden (x : IVec S2048x8 32) (hx : InRange x) (W1 : FVec Ideal S256x50000 .f32) (b1 : FVec Ideal S256 .f32) :
    Read.val_main_v25 (F := Ideal) x W1 b1 = hid x W1 b1 := by
  funext i
  obtain ⟨n, d, rfl⟩ : ∃ n d, i = ix2 n d := ⟨i 0, i 1, eq_ix2 i⟩
  -- the contraction reads the one-hot matrix at (n, v) and the transposed W1 at (v, d), which is W1 at (d, v)
  have e1 : ∀ v : Fin 50000, Read.lidx_main_v21 (ix2 n d) v = ix2 n v := fun v =>
    funext fun a => Fin.ext (by match a with | ⟨0, _⟩ => rfl | ⟨1, _⟩ => rfl)
  have e2 : ∀ v : Fin 50000, Read.idx_main_v20 (Read.ridx_main_v21 (ix2 n d) v) = ix2 d v := fun v =>
    funext fun a => Fin.ext (by match a with | ⟨0, _⟩ => rfl | ⟨1, _⟩ => rfl)
  -- the bias is broadcast along the rows: entry (n, d) reads b1 at d
  have e3 : Read.idx_main_v22 (Read.idx_main_v23 (ix2 n d)) = ix1 d :=
    funext fun a => Fin.ext (by match a with | ⟨0, _⟩ => rfl)
  rw [hid_ix2, Read.val_main_v25_apply, Read.val_main_v24_apply, Read.val_main_v21_apply, Read.val_main_v23_apply,
    Read.val_main_v22_apply, Read.val_main_call0_v0_apply, Read.val_main_call0_cst_apply]
  simp only [Read.val_main_v20_apply, e1, e2, e3, Ideal.addf_def, Ideal.maximumf_def, Ideal.ofBits_def,
    Ideal.ofBits_zero_f32]
  rw [onehot_row_dot x hx W1 n d]
  rfl

/-- The reference's result is the common function of the arguments. -/
theorem ref_eq (x : IVec S2048x8 32) (hx : InRange x) (W1 : FVec Ideal S256x50000 .f32) (b1 : FVec Ideal S256 .f32)
    (W2 : FVec Ideal S50000x256 .f32) (b2 : FVec Ideal S50000 .f32) :
    Read.val_main_v30 (F := Ideal) x W1 b1 W2 b2 = G x W1 b1 W2 b2 := by
  funext i
  obtain ⟨n, v, rfl⟩ : ∃ n v, i = ix2 n v := ⟨i 0, i 1, eq_ix2 i⟩
  -- the contraction reads the hidden layer at (n, k) and the transposed W2 at (k, v), which is W2 at (v, k)
  have e1 : ∀ k : Fin 256, Read.lidx_main_v27 (ix2 n v) k = ix2 n k := fun k =>
    funext fun a => Fin.ext (by match a with | ⟨0, _⟩ => rfl | ⟨1, _⟩ => rfl)
  have e2 : ∀ k : Fin 256, Read.idx_main_v26 (Read.ridx_main_v27 (ix2 n v) k) = ix2 v k := fun k =>
    funext fun a => Fin.ext (by match a with | ⟨0, _⟩ => rfl | ⟨1, _⟩ => rfl)
  -- the bias is broadcast along the rows: entry (n, v) reads b2 at v
  have e3 : Read.idx_main_v28 (Read.idx_main_v29 (ix2 n v)) = ix1 v :=
    funext fun a => Fin.ext (by match a with | ⟨0, _⟩ => rfl)
  rw [G_ix2, Read.val_main_v30_apply, Read.val_main_v27_apply, Read.val_main_v29_apply, Read.val_main_v28_apply,
    ref_hidden x hx W1 b1]
  simp only [Read.val_main_v26_apply, e1, e2, e3, hid_ix2, Ideal.addf_def]
  rfl

end Cert.ReferenceIdeal.RefValue

end
-- ==== Proof.lean ====
/-
  The certificate: the kernel (a host gather with first-occurrence weights, then a tiled matrix product with
  bias) and the reference (a scattered one-hot matrix through two dense layers) compute one function of their
  arguments over the extended reals, when every token is a vocabulary entry (0 <= token < 50000).

  Both hidden layers are max (sum over the row's DISTINCT tokens v of 1/8 * W1[d, v] + b1[d]) 0: the kernel sums
  over the eight positions with a repeated token weighted 0, the reference over all 50000 vocabulary entries with
  the absent ones weighted 0. Both outputs are then sum_k hid[n, k] * W2[v, k] + b2[v]. The kernel's 50 output
  tiles, the last vocabulary tile cut at column 50000, piece the whole array together.

  The frames: the kernel's program ends without a fault and leaves its arguments as launched at both instances
  (the output tile is not named at the word level, where a tile's valid part is no function of the operands'
  valid parts); the reference is straight-line host code. The idealization rewrote nothing.
-/
import proofs.«426636_j893353198128_3_alg».proof.Defs
import proofs.«426636_j893353198128_3_alg».proof.Proof.Gen.Kernel
import proofs.«426636_j893353198128_3_alg».proof.Proof.Gen.Kernel.Skeleton
import proofs.«426636_j893353198128_3_alg».proof.Proof.Gen.Kernel.Launch
import proofs.«426636_j893353198128_3_alg».proof.Proof.Gen.Kernel.Points
import proofs.«426636_j893353198128_3_alg».proof.Proof.Gen.Kernel.Frame
import proofs.«426636_j893353198128_3_alg».proof.Proof.Gen.KernelIdeal
import proofs.«426636_j893353198128_3_alg».proof.Proof.Gen.KernelIdeal.Skeleton
import proofs.«426636_j893353198128_3_alg».proof.Proof.Gen.KernelIdeal.Launch
import proofs.«426636_j893353198128_3_alg».proof.Proof.Gen.KernelIdeal.Points
import proofs.«426636_j893353198128_3_alg».proof.Proof.Gen.KernelIdeal.Frame
import proofs.«426636_j893353198128_3_alg».proof.Proof.Gen.ReferenceIdeal
import proofs.«426636_j893353198128_3_alg».proof.Proof.Gen.Pre_finite_inputs
import proofs.«426636_j893353198128_3_alg».proof.Proof.Gen.ReferenceIdeal.Run
import proofs.«426636_j893353198128_3_alg».proof.Proof.Gen.ReferenceIdeal.Read
import proofs.«426636_j893353198128_3_alg».proof.Proof.Spec
import proofs.«426636_j893353198128_3_alg».proof.Proof.PreRange
import proofs.«426636_j893353198128_3_alg».proof.Proof.FrameB
import proofs.«426636_j893353198128_3_alg».proof.Proof.FrameI
import proofs.«426636_j893353198128_3_alg».proof.Proof.BodyI
import proofs.«426636_j893353198128_3_alg».proof.Proof.ValueI
import proofs.«426636_j893353198128_3_alg».proof.Proof.RefI
import Idealize.ShloMosaic.Adequacy
import Idealize.ShloMosaic.Init

noncomputable section

namespace Cert.Proof

open Idealize.ShloMosaic Idealize.SL.Sem Cert.Cbow

section Claims

variable [hK : Cert.Kernel.Facts] [hKI : Cert.KernelIdeal.Facts] [hR : Cert.ReferenceIdeal.Facts] [hP : Cert.Pre_finite_inputs.Facts]

/-- The word-level kernel program ends without a fault, its arguments as launched. -/
theorem frame_k : Cert.frame_Kernel := fun m ρ _ => Cert.Kernel.Hand.frame_any m ρ

/-- So does the idealized kernel program. -/
theorem frame_ki : Cert.frame_KernelIdeal := fun m ρ _ => Cert.KernelIdeal.Hand.frame_any m ρ

/-- The reference is host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the common function `G` of the arguments in their result. -/
theorem algebraic : Cert.algebraic_KernelIdeal_ReferenceIdeal := by
  intro m ρ m' ρ' hpre hagree
  have hx : ∀ c : Dev Cert.KernelIdeal.nD, InRange (m ((c.tc : Thread Cert.KernelIdeal.nD Cert.KernelIdeal.τ).loc Cert.KernelIdeal.main_arg0)) :=
    fun c => inRange_of_pre _ _ _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel: the output array after the last write-back, and the arguments through the region
    exact (θ_run Cert.KernelIdeal.defs _ _).mono
      (fun r h c => ⟨((h c).1 3).trans (Cert.KernelIdeal.Hand.final_out m c (hx c)),
        ((h c).2 Cert.KernelIdeal.main_arg0 (Pipeline.mem_restRefs_of Cert.KernelIdeal.main_arg0 (by decide) (by decide))).trans (Cert.KernelIdeal.Gen.V_main_arg0 m c),
        ((h c).2 Cert.KernelIdeal.main_arg1 (Pipeline.mem_restRefs_of Cert.KernelIdeal.main_arg1 (by decide) (by decide))).trans (Cert.KernelIdeal.Gen.V_main_arg1 m c),
        ((h c).2 Cert.KernelIdeal.main_arg2 (Pipeline.mem_restRefs_of Cert.KernelIdeal.main_arg2 (by decide) (by decide))).trans (Cert.KernelIdeal.Gen.V_main_arg2 m c),
        ((h c).1 1).trans (((Cert.KernelIdeal.Hand.dats m 0 c).arrAt_in 1 rfl _).trans ((Cert.KernelIdeal.Hand.dats_A m c 1).trans (Cert.KernelIdeal.Gen.V_main_arg3 m c))),
        ((h c).2 Cert.KernelIdeal.main_arg4 (Pipeline.mem_restRefs_of Cert.KernelIdeal.main_arg4 (by decide) (by decide))).trans (Cert.KernelIdeal.Gen.V_main_arg4 m c)⟩)
      (Cert.KernelIdeal.Hand.run_main m ρ)
  · -- the reference: its run's term is the last stage, which is `G` of its own arguments, which agree
    refine (θ_run Cert.ReferenceIdeal.defs _ _).mono (fun _ h c => ⟨(h c).1.trans ?_, (h c).2⟩)
      (Cert.ReferenceIdeal.Value.run (F := Ideal) m' ρ')
    have hx' : InRange (m' ((c.tc : Thread Cert.ReferenceIdeal.nD Cert.ReferenceIdeal.τ).loc Cert.ReferenceIdeal.main_arg0)) := by
      rw [(hagree c).1]; exact hx c
    rw [Cert.ReferenceIdeal.Read.val_main_v30_eq, Cert.ReferenceIdeal.RefValue.ref_eq _ hx',
      (hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
